-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x288x64516 : Shape := ⟨3, ![8, 288, 64516]⟩
abbrev S_ : Shape := ⟨0, ![]⟩

class Facts : Prop where
  bcast_S_S8x288x64516 : S_.BroadcastsInDim S8x288x64516 (![] : Fin 0 → Fin S8x288x64516.rank)
  reducesTo_S8x288x64516_S_d0_1_2 : S8x288x64516.ReducesTo [0, 1, 2] S_
  h_S_ : 0 < S_.numel

variable [Facts]

def fn {F : FTy → Type} [FloatOps F] (main_arg0 : FVec F S8x288x64516 .f32) : IVec S_ 1 :=
  let main_v0 : FVec F S8x288x64516 .f32 := Host.absf main_arg0
  let main_cst : FVec F S_ .f32 := constant S_ .f32 0x7F800000#32
  let main_v1 : FVec F S8x288x64516 .f32 := broadcastInDim S8x288x64516 ![] bcast_S_S8x288x64516 main_cst
  let main_v2 : IVec S8x288x64516 1 := cmpf .olt main_v0 main_v1
  let main_c : IVec S_ 1 := constantI S_ 1 1#1
  let main_v3 : IVec S_ 1 := (fun x v => Host.reduce IntOp.andi x v reducesTo_S8x288x64516_S_d0_1_2 h_S_) main_v2 main_c
  main_v3
-- ==== Kernel.lean ====
abbrev S8x288x64516 : Shape := ⟨3, ![8, 288, 64516]⟩
abbrev S8x32x9x254x254 : Shape := ⟨5, ![8, 32, 9, 254, 254]⟩
abbrev S8x32x256x256 : Shape := ⟨4, ![8, 32, 256, 256]⟩
abbrev S1x4x9x254x254 : Shape := ⟨5, ![1, 4, 9, 254, 254]⟩
abbrev S1x4x256x256 : Shape := ⟨4, ![1, 4, 256, 256]⟩
abbrev S4x256x256 : Shape := ⟨3, ![4, 256, 256]⟩
abbrev S1x4x1x254x254 : Shape := ⟨5, ![1, 4, 1, 254, 254]⟩
abbrev S4x254x254 : Shape := ⟨3, ![4, 254, 254]⟩
abbrev S1x4x254x254 : Shape := ⟨4, ![1, 4, 254, 254]⟩

abbrev nBuf : Space → Nat
  | .hbm => 3
  | .vmem => 4
  | .smem => 0
  | _ => 0

abbrev bufTy : (tb : Table) → Fin (tcTables nBuf tb) → BufTy
  | .hbm, ⟨0, _⟩ => ⟨S8x288x64516, .f32⟩
  | .hbm, ⟨1, _⟩ => ⟨S8x32x9x254x254, .f32⟩
  | .hbm, ⟨2, _⟩ => ⟨S8x32x256x256, .f32⟩
  | .local _ .vmem, ⟨0, _⟩ => ⟨S1x4x9x254x254, .f32⟩
  | .local _ .vmem, ⟨1, _⟩ => ⟨S1x4x9x254x254, .f32⟩
  | .local _ .vmem, ⟨2, _⟩ => ⟨S1x4x256x256, .f32⟩
  | .local _ .vmem, ⟨3, _⟩ => ⟨S1x4x256x256, .f32⟩
  | _, _ => ⟨S8x288x64516, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![8, 8], ![false, false]⟩

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x4x9x254x254 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  shapeCasts_S8x288x64516_S8x32x9x254x254 : S8x288x64516.ShapeCasts S8x32x9x254x254
  inb_S1x4x256x256_S1x4x256x256_0_0_0_0 : ∀ a, (![0, 0, 0, 0] : Fin 4 → Nat) a + S1x4x256x256.size a ≤ S1x4x256x256.size a
  h_S1x4x256x256 : 0 < S1x4x256x256.numel
  shapeCasts_S1x4x256x256_S4x256x256 : S1x4x256x256.ShapeCasts S4x256x256
  shapeCasts_S4x256x256_S1x4x256x256 : S4x256x256.ShapeCasts S1x4x256x256
  inb_S1x4x9x254x254_S1x4x1x254x254_0_0_0_0_0 : ∀ a, (![0, 0, 0, 0, 0] : Fin 5 → Nat) a + S1x4x1x254x254.size a ≤ S1x4x9x254x254.size a
  h_S1x4x1x254x254 : 0 < S1x4x1x254x254.numel
  shapeCasts_S1x4x1x254x254_S4x254x254 : S1x4x1x254x254.ShapeCasts S4x254x254
  inb_S1x4x256x256_S1x4x254x254_0_0_0_0 : ∀ a, (![0, 0, 0, 0] : Fin 4 → Nat) a + S1x4x254x254.size a ≤ S1x4x256x256.size a
  h_S1x4x254x254 : 0 < S1x4x254x254.numel
  shapeCasts_S1x4x254x254_S4x254x254 : S1x4x254x254.ShapeCasts S4x254x254
  shapeCasts_S4x254x254_S1x4x254x254 : S4x254x254.ShapeCasts S1x4x254x254
  inb_S1x4x9x254x254_S1x4x1x254x254_0_0_1_0_0 : ∀ a, (![0, 0, 1, 0, 0] : Fin 5 → Nat) a + S1x4x1x254x254.size a ≤ S1x4x9x254x254.size a
  inb_S1x4x256x256_S1x4x254x254_0_0_0_1 : ∀ a, (![0, 0, 0, 1] : Fin 4 → Nat) a + S1x4x254x254.size a ≤ S1x4x256x256.size a
  inb_S1x4x9x254x254_S1x4x1x254x254_0_0_2_0_0 : ∀ a, (![0, 0, 2, 0, 0] : Fin 5 → Nat) a + S1x4x1x254x254.size a ≤ S1x4x9x254x254.size a
  inb_S1x4x256x256_S1x4x254x254_0_0_0_2 : ∀ a, (![0, 0, 0, 2] : Fin 4 → Nat) a + S1x4x254x254.size a ≤ S1x4x256x256.size a
  inb_S1x4x9x254x254_S1x4x1x254x254_0_0_3_0_0 : ∀ a, (![0, 0, 3, 0, 0] : Fin 5 → Nat) a + S1x4x1x254x254.size a ≤ S1x4x9x254x254.size a
  inb_S1x4x256x256_S1x4x254x254_0_0_1_0 : ∀ a, (![0, 0, 1, 0] : Fin 4 → Nat) a + S1x4x254x254.size a ≤ S1x4x256x256.size a
  inb_S1x4x9x254x254_S1x4x1x254x254_0_0_4_0_0 : ∀ a, (![0, 0, 4, 0, 0] : Fin 5 → Nat) a + S1x4x1x254x254.size a ≤ S1x4x9x254x254.size a
  inb_S1x4x256x256_S1x4x254x254_0_0_1_1 : ∀ a, (![0, 0, 1, 1] : Fin 4 → Nat) a + S1x4x254x254.size a ≤ S1x4x256x256.size a
  inb_S1x4x9x254x254_S1x4x1x254x254_0_0_5_0_0 : ∀ a, (![0, 0, 5, 0, 0] : Fin 5 → Nat) a + S1x4x1x254x254.size a ≤ S1x4x9x254x254.size a
  inb_S1x4x256x256_S1x4x254x254_0_0_1_2 : ∀ a, (![0, 0, 1, 2] : Fin 4 → Nat) a + S1x4x254x254.size a ≤ S1x4x256x256.size a
  inb_S1x4x9x254x254_S1x4x1x254x254_0_0_6_0_0 : ∀ a, (![0, 0, 6, 0, 0] : Fin 5 → Nat) a + S1x4x1x254x254.size a ≤ S1x4x9x254x254.size a
  inb_S1x4x256x256_S1x4x254x254_0_0_2_0 : ∀ a, (![0, 0, 2, 0] : Fin 4 → Nat) a + S1x4x254x254.size a ≤ S1x4x256x256.size a
  inb_S1x4x9x254x254_S1x4x1x254x254_0_0_7_0_0 : ∀ a, (![0, 0, 7, 0, 0] : Fin 5 → Nat) a + S1x4x1x254x254.size a ≤ S1x4x9x254x254.size a
  inb_S1x4x256x256_S1x4x254x254_0_0_2_1 : ∀ a, (![0, 0, 2, 1] : Fin 4 → Nat) a + S1x4x254x254.size a ≤ S1x4x256x256.size a
  inb_S1x4x9x254x254_S1x4x1x254x254_0_0_8_0_0 : ∀ a, (![0, 0, 8, 0, 0] : Fin 5 → Nat) a + S1x4x1x254x254.size a ≤ S1x4x9x254x254.size a
  inb_S1x4x256x256_S1x4x254x254_0_0_2_2 : ∀ a, (![0, 0, 2, 2] : Fin 4 → Nat) a + S1x4x254x254.size a ≤ S1x4x256x256.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4x9x254x254.size a ≤ S8x32x9x254x254.size a
  hwx0_0 : ∀ i : grid0.Coords, EltTy.bits .f32 = 32 ∨ (Rect.block (s := S8x32x9x254x254) S1x4x9x254x254.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4x256x256.size a ≤ S8x32x256x256.size a
  hwx0_1 : ∀ i : grid0.Coords, EltTy.bits .f32 = 32 ∨ (Rect.block (s := S8x32x256x256) S1x4x256x256.size (cc0_transform_1 i) (hinb0_1 i)).WholeWords (EltTy.packing .f32)

variable [Facts₀]

abbrev win0_0 : Pipeline.Window sig grid0 :=
  Pipeline.Window.ofSpec (Memref.whole main_v0) S1x4x9x254x254.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x4x256x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8x288x64516 : Shape := ⟨3, ![8, 288, 64516]⟩
abbrev S254 : Shape := ⟨1, ![254]⟩
abbrev S_ : Shape := ⟨0, ![]⟩
abbrev S3 : Shape := ⟨1, ![3]⟩
abbrev S3x1 : Shape := ⟨2, ![3, 1]⟩
abbrev S1x254 : Shape := ⟨2, ![1, 254]⟩
abbrev S3x254 : Shape := ⟨2, ![3, 254]⟩
abbrev S3x1x254x1 : Shape := ⟨4, ![3, 1, 254, 1]⟩
abbrev S1x3x1x254 : Shape := ⟨4, ![1, 3, 1, 254]⟩
abbrev S3x3x254x254 : Shape := ⟨4, ![3, 3, 254, 254]⟩
abbrev S580644 : Shape := ⟨1, ![580644]⟩
abbrev S8x32x580644 : Shape := ⟨3, ![8, 32, 580644]⟩
abbrev S8x32x65536 : Shape := ⟨3, ![8, 32, 65536]⟩
abbrev S580644x1 : Shape := ⟨2, ![580644, 1]⟩
abbrev S8x32x256x256 : Shape := ⟨4, ![8, 32, 256, 256]⟩

abbrev nBuf : Space → Nat
  | .hbm => 55
  | .vmem => 0
  | .smem => 0
  | _ => 0

abbrev bufTy : (tb : Table) → Fin (tcTables nBuf tb) → BufTy
  | .hbm, ⟨0, _⟩ => ⟨S8x288x64516, .f32⟩
  | .hbm, ⟨1, _⟩ => ⟨S254, .i32⟩
  | .hbm, ⟨2, _⟩ => ⟨S_, .i32⟩
  | .hbm, ⟨3, _⟩ => ⟨S254, .i32⟩
  | .hbm, ⟨4, _⟩ => ⟨S254, .i32⟩
  | .hbm, ⟨5, _⟩ => ⟨S_, .i32⟩
  | .hbm, ⟨6, _⟩ => ⟨S254, .i32⟩
  | .hbm, ⟨7, _⟩ => ⟨S254, .i32⟩
  | .hbm, ⟨8, _⟩ => ⟨S3, .i32⟩
  | .hbm, ⟨9, _⟩ => ⟨S_, .i32⟩
  | .hbm, ⟨10, _⟩ => ⟨S3, .i32⟩
  | .hbm, ⟨11, _⟩ => ⟨S3, .i32⟩
  | .hbm, ⟨12, _⟩ => ⟨S3x1, .i32⟩
  | .hbm, ⟨13, _⟩ => ⟨S1x254, .i32⟩
  | .hbm, ⟨14, _⟩ => ⟨S3x254, .i32⟩
  | .hbm, ⟨15, _⟩ => ⟨S3x254, .i32⟩
  | .hbm, ⟨16, _⟩ => ⟨S3x254, .i32⟩
  | .hbm, ⟨17, _⟩ => ⟨S254, .i32⟩
  | .hbm, ⟨18, _⟩ => ⟨S_, .i32⟩
  | .hbm, ⟨19, _⟩ => ⟨S254, .i32⟩
  | .hbm, ⟨20, _⟩ => ⟨S254, .i32⟩
  | .hbm, ⟨21, _⟩ => ⟨S_, .i32⟩
  | .hbm, ⟨22, _⟩ => ⟨S254, .i32⟩
  | .hbm, ⟨23, _⟩ => ⟨S254, .i32⟩
  | .hbm, ⟨24, _⟩ => ⟨S3, .i32⟩
  | .hbm, ⟨25, _⟩ => ⟨S_, .i32⟩
  | .hbm, ⟨26, _⟩ => ⟨S3, .i32⟩
  | .hbm, ⟨27, _⟩ => ⟨S3, .i32⟩
  | .hbm, ⟨28, _⟩ => ⟨S3x1, .i32⟩
  | .hbm, ⟨29, _⟩ => ⟨S1x254, .i32⟩
  | .hbm, ⟨30, _⟩ => ⟨S3x254, .i32⟩
  | .hbm, ⟨31, _⟩ => ⟨S3x254, .i32⟩
  | .hbm, ⟨32, _⟩ => ⟨S3x254, .i32⟩
  | .hbm, ⟨33, _⟩ => ⟨S3x1x254x1, .i32⟩
  | .hbm, ⟨34, _⟩ => ⟨S_, .i32⟩
  | .hbm, ⟨35, _⟩ => ⟨S3x1x254x1, .i32⟩
  | .hbm, ⟨36, _⟩ => ⟨S3x1x254x1, .i32⟩
  | .hbm, ⟨37, _⟩ => ⟨S1x3x1x254, .i32⟩
  | .hbm, ⟨38, _⟩ => ⟨S3x3x254x254, .i32⟩
  | .hbm, ⟨39, _⟩ => ⟨S3x3x254x254, .i32⟩
  | .hbm, ⟨40, _⟩ => ⟨S3x3x254x254, .i32⟩
  | .hbm, ⟨41, _⟩ => ⟨S580644, .i32⟩
  | .hbm, ⟨42, _⟩ => ⟨S8x32x580644, .f32⟩
  | .hbm, ⟨43, _⟩ => ⟨S_, .f32⟩
  | .hbm, ⟨44, _⟩ => ⟨S8x32x65536, .f32⟩
  | .hbm, ⟨45, _⟩ => ⟨S_, .i32⟩
  | .hbm, ⟨46, _⟩ => ⟨S580644, .i32⟩
  | .hbm, ⟨47, _⟩ => ⟨S580644, .i1⟩
  | .hbm, ⟨48, _⟩ => ⟨S_, .i32⟩
  | .hbm, ⟨49, _⟩ => ⟨S580644, .i32⟩
  | .hbm, ⟨50, _⟩ => ⟨S580644, .i32⟩
  | .hbm, ⟨51, _⟩ => ⟨S580644, .i32⟩
  | .hbm, ⟨52, _⟩ => ⟨S580644x1, .i32⟩
  | .hbm, ⟨53, _⟩ => ⟨S8x32x65536, .f32⟩
  | .hbm, ⟨54, _⟩ => ⟨S8x32x256x256, .f32⟩
  | _, _ => ⟨S8x288x64516, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_c_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c_1 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_c_2 : Ref sig .tc := ⟨.hbm, 18, rfl⟩
abbrev main_v14 : Ref sig .tc := ⟨.hbm, 19, rfl⟩
abbrev main_v15 : Ref sig .tc := ⟨.hbm, 20, rfl⟩
abbrev main_c_3 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_c_4 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_c_5 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_cst : Ref sig .tc := ⟨.hbm, 43, rfl⟩
abbrev main_v35 : Ref sig .tc := ⟨.hbm, 44, rfl⟩
abbrev main_c_6 : Ref sig .tc := ⟨.hbm, 45, rfl⟩
abbrev main_v36 : Ref sig .tc := ⟨.hbm, 46, rfl⟩
abbrev main_v37 : Ref sig .tc := ⟨.hbm, 47, rfl⟩
abbrev main_c_7 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩

abbrev nD : Nat := 1
abbrev τ : Topo := Topo.v7x

variable {F : FTy → Type} [FloatOps F]

class Facts₀ : Prop where
  bcast_S_S254 : S_.BroadcastsInDim S254 (![] : Fin 0 → Fin S254.rank)
  bcast_S_S3 : S_.BroadcastsInDim S3 (![] : Fin 0 → Fin S3.rank)
  bcast_S3_S3x1_0 : S3.BroadcastsInDim S3x1 (![0] : Fin 1 → Fin S3x1.rank)
  bcast_S254_S1x254_1 : S254.BroadcastsInDim S1x254 (![1] : Fin 1 → Fin S1x254.rank)
  bcast_S1x254_S3x254_0_1 : S1x254.BroadcastsInDim S3x254 (![0, 1] : Fin 2 → Fin S3x254.rank)
  bcast_S3x1_S3x254_0_1 : S3x1.BroadcastsInDim S3x254 (![0, 1] : Fin 2 → Fin S3x254.rank)
  bcast_S3x254_S3x1x254x1_0_2 : S3x254.BroadcastsInDim S3x1x254x1 (![0, 2] : Fin 2 → Fin S3x1x254x1.rank)
  bcast_S_S3x1x254x1 : S_.BroadcastsInDim S3x1x254x1 (![] : Fin 0 → Fin S3x1x254x1.rank)
  bcast_S3x254_S1x3x1x254_1_3 : S3x254.BroadcastsInDim S1x3x1x254 (![1, 3] : Fin 2 → Fin S1x3x1x254.rank)
  bcast_S3x1x254x1_S3x3x254x254_0_1_2_3 : S3x1x254x1.BroadcastsInDim S3x3x254x254 (![0, 1, 2, 3] : Fin 4 → Fin S3x3x254x254.rank)
  bcast_S1x3x1x254_S3x3x254x254_0_1_2_3 : S1x3x1x254.BroadcastsInDim S3x3x254x254 (![0, 1, 2, 3] : Fin 4 → Fin S3x3x254x254.rank)
  shapeCasts_S3x3x254x254_S580644 : S3x3x254x254.ShapeCasts S580644
  shapeCasts_S8x288x64516_S8x32x580644 : S8x288x64516.ShapeCasts S8x32x580644
  bcast_S_S8x32x65536 : S_.BroadcastsInDim S8x32x65536 (![] : Fin 0 → Fin S8x32x65536.rank)
  bcast_S_S580644 : S_.BroadcastsInDim S580644 (![] : Fin 0 → Fin S580644.rank)
  bcast_S580644_S580644x1_0 : S580644.BroadcastsInDim S580644x1 (![0] : Fin 1 → Fin S580644x1.rank)
  shapeCasts_S8x32x65536_S8x32x256x256 : S8x32x65536.ShapeCasts S8x32x256x256
  scatter_S8x32x65536_S580644x1_S8x32x580644_01_2_2_1_wf : ScatterDims.WF S8x32x65536 S580644x1 S8x32x580644 [0, 1] [2] [2] 1

variable [Facts₀]

def scatter_S8x32x65536_S580644x1_S8x32x580644_01_2_2_1 : ScatterDims S8x32x65536 S580644x1 S8x32x580644 where
  updateWindowDims := [0, 1]
  insertedWindowDims := [2]
  scatterDimsToOperandDims := [2]
  indexVectorDim := 1
  wf := scatter_S8x32x65536_S580644x1_S8x32x580644_01_2_2_1_wf

class Facts : Prop extends Facts₀ where

variable [Facts]
-- ==== Proof.OutK.lean ====
/-
  What one grid point of the overlap-add kernel leaves in its output block, as a function of its input block `x`
  (four channels, nine 254 × 254 patch planes each): the block is zeroed, and then for each kernel offset
  `(kh, kw)`, in row-major order, the window of rows `kh‥kh+253` and columns `kw‥kw+253` is replaced by itself plus
  patch plane `3·kh + kw`. `acc k` is the block after the first `k` of the nine additions; each is the previous one
  with one window overlaid. Stated for every float instance.
-/
import proofs.«150232_j14559939133583_1_alg».proof.Proof.Gen.Kernel.Skeleton
import Idealize.ShloMosaic.Lib.Pipeline.FrameBody
import Idealize.ShloMosaic.Lib.Pipeline.Value

noncomputable section

namespace Cert.Proof.K

open Cert.Kernel Cert.Kernel.Gen
open Idealize.ShloMosaic

variable {F : FTy → Type} [FloatOps F]

/-- The whole output block. -/
abbrev rFull : Rect S1x4x256x256 := Rect.unit (s := S1x4x256x256) ![0, 0, 0, 0] S1x4x256x256.size inb_S1x4x256x256_S1x4x256x256_0_0_0_0
/-- The 254 × 254 window of the output block that kernel offset (0, 0) adds into: rows 0‥253, columns 0‥253, every channel. -/
abbrev rO00 : Rect S1x4x256x256 := Rect.unit (s := S1x4x256x256) ![0, 0, 0, 0] S1x4x254x254.size inb_S1x4x256x256_S1x4x254x254_0_0_0_0
/-- Patch plane 0 = 3·0 + 0 of the input block, every channel. -/
abbrev rI0 : Rect S1x4x9x254x254 := Rect.unit (s := S1x4x9x254x254) ![0, 0, 0, 0, 0] S1x4x1x254x254.size inb_S1x4x9x254x254_S1x4x1x254x254_0_0_0_0_0
/-- The 254 × 254 window of the output block that kernel offset (0, 1) adds into: rows 0‥253, columns 1‥254, every channel. -/
abbrev rO01 : Rect S1x4x256x256 := Rect.unit (s := S1x4x256x256) ![0, 0, 0, 1] S1x4x254x254.size inb_S1x4x256x256_S1x4x254x254_0_0_0_1
/-- Patch plane 1 = 3·0 + 1 of the input block, every channel. -/
abbrev rI1 : Rect S1x4x9x254x254 := Rect.unit (s := S1x4x9x254x254) ![0, 0, 1, 0, 0] S1x4x1x254x254.size inb_S1x4x9x254x254_S1x4x1x254x254_0_0_1_0_0
/-- The 254 × 254 window of the output block that kernel offset (0, 2) adds into: rows 0‥253, columns 2‥255, every channel. -/
abbrev rO02 : Rect S1x4x256x256 := Rect.unit (s := S1x4x256x256) ![0, 0, 0, 2] S1x4x254x254.size inb_S1x4x256x256_S1x4x254x254_0_0_0_2
/-- Patch plane 2 = 3·0 + 2 of the input block, every channel. -/
abbrev rI2 : Rect S1x4x9x254x254 := Rect.unit (s := S1x4x9x254x254) ![0, 0, 2, 0, 0] S1x4x1x254x254.size inb_S1x4x9x254x254_S1x4x1x254x254_0_0_2_0_0
/-- The 254 × 254 window of the output block that kernel offset (1, 0) adds into: rows 1‥254, columns 0‥253, every channel. -/
abbrev rO10 : Rect S1x4x256x256 := Rect.unit (s := S1x4x256x256) ![0, 0, 1, 0] S1x4x254x254.size inb_S1x4x256x256_S1x4x254x254_0_0_1_0
/-- Patch plane 3 = 3·1 + 0 of the input block, every channel. -/
abbrev rI3 : Rect S1x4x9x254x254 := Rect.unit (s := S1x4x9x254x254) ![0, 0, 3, 0, 0] S1x4x1x254x254.size inb_S1x4x9x254x254_S1x4x1x254x254_0_0_3_0_0
/-- The 254 × 254 window of the output block that kernel offset (1, 1) adds into: rows 1‥254, columns 1‥254, every channel. -/
abbrev rO11 : Rect S1x4x256x256 := Rect.unit (s := S1x4x256x256) ![0, 0, 1, 1] S1x4x254x254.size inb_S1x4x256x256_S1x4x254x254_0_0_1_1
/-- Patch plane 4 = 3·1 + 1 of the input block, every channel. -/
abbrev rI4 : Rect S1x4x9x254x254 := Rect.unit (s := S1x4x9x254x254) ![0, 0, 4, 0, 0] S1x4x1x254x254.size inb_S1x4x9x254x254_S1x4x1x254x254_0_0_4_0_0
/-- The 254 × 254 window of the output block that kernel offset (1, 2) adds into: rows 1‥254, columns 2‥255, every channel. -/
abbrev rO12 : Rect S1x4x256x256 := Rect.unit (s := S1x4x256x256) ![0, 0, 1, 2] S1x4x254x254.size inb_S1x4x256x256_S1x4x254x254_0_0_1_2
/-- Patch plane 5 = 3·1 + 2 of the input block, every channel. -/
abbrev rI5 : Rect S1x4x9x254x254 := Rect.unit (s := S1x4x9x254x254) ![0, 0, 5, 0, 0] S1x4x1x254x254.size inb_S1x4x9x254x254_S1x4x1x254x254_0_0_5_0_0
/-- The 254 × 254 window of the output block that kernel offset (2, 0) adds into: rows 2‥255, columns 0‥253, every channel. -/
abbrev rO20 : Rect S1x4x256x256 := Rect.unit (s := S1x4x256x256) ![0, 0, 2, 0] S1x4x254x254.size inb_S1x4x256x256_S1x4x254x254_0_0_2_0
/-- Patch plane 6 = 3·2 + 0 of the input block, every channel. -/
abbrev rI6 : Rect S1x4x9x254x254 := Rect.unit (s := S1x4x9x254x254) ![0, 0, 6, 0, 0] S1x4x1x254x254.size inb_S1x4x9x254x254_S1x4x1x254x254_0_0_6_0_0
/-- The 254 × 254 window of the output block that kernel offset (2, 1) adds into: rows 2‥255, columns 1‥254, every channel. -/
abbrev rO21 : Rect S1x4x256x256 := Rect.unit (s := S1x4x256x256) ![0, 0, 2, 1] S1x4x254x254.size inb_S1x4x256x256_S1x4x254x254_0_0_2_1
/-- Patch plane 7 = 3·2 + 1 of the input block, every channel. -/
abbrev rI7 : Rect S1x4x9x254x254 := Rect.unit (s := S1x4x9x254x254) ![0, 0, 7, 0, 0] S1x4x1x254x254.size inb_S1x4x9x254x254_S1x4x1x254x254_0_0_7_0_0
/-- The 254 × 254 window of the output block that kernel offset (2, 2) adds into: rows 2‥255, columns 2‥255, every channel. -/
abbrev rO22 : Rect S1x4x256x256 := Rect.unit (s := S1x4x256x256) ![0, 0, 2, 2] S1x4x254x254.size inb_S1x4x256x256_S1x4x254x254_0_0_2_2
/-- Patch plane 8 = 3·2 + 2 of the input block, every channel. -/
abbrev rI8 : Rect S1x4x9x254x254 := Rect.unit (s := S1x4x9x254x254) ![0, 0, 8, 0, 0] S1x4x1x254x254.size inb_S1x4x9x254x254_S1x4x1x254x254_0_0_8_0_0

/-- The zeroed block: what the one store through the whole block leaves. -/
def acc0 : Vec F S1x4x256x256 .f32 := rFull.overlay (View.canon []) (k0_pay3 (F := F))
/-- After offset (0, 0): window (0, 0) plus plane 0. -/
def acc1 (x : Vec F S1x4x9x254x254 .f32) : Vec F S1x4x256x256 .f32 :=
  rO00.overlay (acc0 (F := F)) (k0_pay4 (View.ld x rI0) (View.ld (acc0 (F := F)) rO00))
/-- After offset (0, 1). -/
def acc2 (x : Vec F S1x4x9x254x254 .f32) : Vec F S1x4x256x256 .f32 :=
  rO01.overlay (acc1 x) (k0_pay5 (View.ld x rI1) (View.ld (acc1 x) rO01))
/-- After offset (0, 2). -/
def acc3 (x : Vec F S1x4x9x254x254 .f32) : Vec F S1x4x256x256 .f32 :=
  rO02.overlay (acc2 x) (k0_pay6 (View.ld x rI2) (View.ld (acc2 x) rO02))
/-- After offset (1, 0). -/
def acc4 (x : Vec F S1x4x9x254x254 .f32) : Vec F S1x4x256x256 .f32 :=
  rO10.overlay (acc3 x) (k0_pay7 (View.ld x rI3) (View.ld (acc3 x) rO10))
/-- After offset (1, 1). -/
def acc5 (x : Vec F S1x4x9x254x254 .f32) : Vec F S1x4x256x256 .f32 :=
  rO11.overlay (acc4 x) (k0_pay9 (k0_pay8 (View.ld x rI4) (View.ld (acc4 x) rO11)))
/-- After offset (1, 2). -/
def acc6 (x : Vec F S1x4x9x254x254 .f32) : Vec F S1x4x256x256 .f32 :=
  rO12.overlay (acc5 x) (k0_pay10 (View.ld x rI5) (View.ld (acc5 x) rO12))
/-- After offset (2, 0). -/
def acc7 (x : Vec F S1x4x9x254x254 .f32) : Vec F S1x4x256x256 .f32 :=
  rO20.overlay (acc6 x) (k0_pay11 (View.ld x rI6) (View.ld (acc6 x) rO20))
/-- After offset (2, 1). -/
def acc8 (x : Vec F S1x4x9x254x254 .f32) : Vec F S1x4x256x256 .f32 :=
  rO21.overlay (acc7 x) (k0_pay1 (k0_pay12 (View.ld x rI7) (View.ld (acc7 x) rO21)))
/-- After offset (2, 2): all nine additions made. -/
def acc9 (x : Vec F S1x4x9x254x254 .f32) : Vec F S1x4x256x256 .f32 :=
  rO22.overlay (acc8 x) (k0_pay2 (View.ld x rI8) (View.ld (acc8 x) rO22))

/-- The whole-block rectangle's offsets are zero. -/
theorem rFull_off : (![0, 0, 0, 0] : Fin 4 → ℕ) = fun _ => 0 := funext fun a => by fin_cases a <;> rfl

/-- The zeroed block is the zero payload at every index. -/
theorem acc0_eq : acc0 (F := F) = k0_pay3 (F := F) := by
  show View.canon (Val := Elt F) [(⟨rFull, k0_pay3 (F := F)⟩ : View.Piece (Elt F) S1x4x256x256 .f32)] = _
  exact View.canon_unit_zero (Val := Elt F) (e := .f32) rFull_off inb_S1x4x256x256_S1x4x256x256_0_0_0_0 (k0_pay3 (F := F))

/-- What the body leaves in the output block. -/
def OUT (x : Vec F S1x4x9x254x254 .f32) : Vec F S1x4x256x256 .f32 := acc9 x

end Cert.Proof.K

end
-- ==== Proof.BodyK.lean ====
/-
  The body of the overlap-add kernel at one grid point, for every float instance: run on whole staging buffers, the input's
  holding the block `x`, it ends with the input's buffer as it was and the output's holding `OUT x` — the zeroed block
  with the nine shifted patch planes added in, one window after the other (`Out.lean`). The buffer the run leaves is a
  list of ten stores, each later store's value computed from a load of the buffer as the earlier stores left it; the
  first store covers the whole block, so the buffer's contents are the stores' canonical contents, which unfold, store
  by store, to `acc 9`.
  Then the pipeline's proof data (each point leaves the input block in place and `OUT` of it in the output's buffer), the
  body obligation at every point, the run of @main and the frame.
-/
import proofs.«150232_j14559939133583_1_alg».proof.Proof.OutK
import proofs.«150232_j14559939133583_1_alg».proof.Proof.Gen.Kernel.Frame
import Idealize.ShloMosaic.Lib.Pipeline.Value

set_option maxRecDepth 16384

noncomputable section

namespace Cert.Proof.K

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf ΦA)

variable {F : FTy → Type} [FloatOps F]

local notation "𝕄" => MT nD τ sig Unit (Elt F) ℕ (UR sig nD τ) ℕ

/-! ## The body's triple -/

set_option maxHeartbeats 1000000 in
/-- On whole staging buffers — the input's at `x0`, the output's at anything — the body runs to the continuation holding
    the input's as it was and the output's at `OUT x0`. -/
theorem sound_kernel (c : Dev nD) (i : grid0.Coords) (arg2 : Memref sig .tc .vmem S1x4x9x254x254 .f32) (harg2 : arg2.IsWhole)
    (arg3 : Memref sig .tc .vmem S1x4x256x256 .f32) (harg3 : arg3.IsWhole) (x0 : Vec F S1x4x9x254x254 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (OUT x0)) -∗ K ⟨⟩))
      ⊢ wp frame (wpE (defs₀ (F := F)) Variants.none c none) Set.univ (cc0__fold_kernel i arg2 harg2 arg3 harg3) K := by
  simp only [cc0__fold_kernel_eq_skeleton]; unfold cc0__fold_kernel_skel
  simp only [k0_part1_eq_skeleton, k0_part2_eq_skeleton, k0_part3_eq_skeleton]
  unfold owns
  iintro ⟨⟨%f0, %hf0, H0⟩, ⟨%d1, %f1, -, H1⟩, Hk⟩
  obtain rfl := harg2.eq_unread hf0
  sl_exec
  sl_step
  iapply Hk
  isplitl [H0]
  · iexists _; isplitr; · ipureintro; exact harg2.read_unread _
    iexact H0
  iexists _; isplitr; swap; · iexact H1
  ipureintro
  rw [View.read_writes_eq_canon _ _ _ (View.cover_of_wholeMem _ (by sl_whole_mem))]
  sl_unfold_run_names
  simp only [View.readCov_eq_canon', View.readAt_eq_ld, harg2.read_unread, View.canon_cons]
  rfl

/-! ## The pipeline's proof data -/

variable (m : (ℓ : Loc nD τ sig) → Buf (Elt F) ℓ) (ρ : Dev nD → PrngReg)

/-- The proof data of the one pipeline on core `c`: the arrays as the region finds them; after the body at point `t` the
    input's buffer at its block and the output's at `OUT` of that block; the class's invariant (the scoped rest and the
    generator register, neither touched); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => OUT (iblk m c 0 t)
  Φ _ := ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = OUT (iblk m c 0 t) := by dsimp only [dats]

/-- The input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

/-- The body at any point: the input's buffer holds its block, whatever the output's buffer holds is overwritten, so
    `sound_kernel` applies; the invariant and what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1]
  iintro ⟨HΦ, Ho, ⟨%d0, H0⟩, ⟨%d1, H1⟩⟩
  iapply (sound_kernel c (grid0.coords t) _ _ _ _ (iblk m c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, each array of the pipeline ending
    at what the library computes from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := fun _ _ => rfl) (hΦ := fun _ _ => rfl)

/-- The frame: @main runs and its argument array ends unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

end Cert.Proof.K

end
-- ==== Proof.Out.lean ====
/-
  What one grid point of the overlap-add kernel leaves in its output block, as a function of its input block `x`
  (four channels, nine 254 × 254 patch planes each): the block is zeroed, and then for each kernel offset
  `(kh, kw)`, in row-major order, the window of rows `kh‥kh+253` and columns `kw‥kw+253` is replaced by itself plus
  patch plane `3·kh + kw`. `acc k` is the block after the first `k` of the nine additions; each is the previous one
  with one window overlaid. Stated for every float instance.
-/
import proofs.«150232_j14559939133583_1_alg».proof.Proof.Gen.KernelIdeal.Skeleton
import Idealize.ShloMosaic.Lib.Pipeline.FrameBody
import Idealize.ShloMosaic.Lib.Pipeline.Value

noncomputable section

namespace Cert.Proof.KI

open Cert.KernelIdeal Cert.KernelIdeal.Gen
open Idealize.ShloMosaic

variable {F : FTy → Type} [FloatOps F]

/-- The whole output block. -/
abbrev rFull : Rect S1x4x256x256 := Rect.unit (s := S1x4x256x256) ![0, 0, 0, 0] S1x4x256x256.size inb_S1x4x256x256_S1x4x256x256_0_0_0_0
/-- The 254 × 254 window of the output block that kernel offset (0, 0) adds into: rows 0‥253, columns 0‥253, every channel. -/
abbrev rO00 : Rect S1x4x256x256 := Rect.unit (s := S1x4x256x256) ![0, 0, 0, 0] S1x4x254x254.size inb_S1x4x256x256_S1x4x254x254_0_0_0_0
/-- Patch plane 0 = 3·0 + 0 of the input block, every channel. -/
abbrev rI0 : Rect S1x4x9x254x254 := Rect.unit (s := S1x4x9x254x254) ![0, 0, 0, 0, 0] S1x4x1x254x254.size inb_S1x4x9x254x254_S1x4x1x254x254_0_0_0_0_0
/-- The 254 × 254 window of the output block that kernel offset (0, 1) adds into: rows 0‥253, columns 1‥254, every channel. -/
abbrev rO01 : Rect S1x4x256x256 := Rect.unit (s := S1x4x256x256) ![0, 0, 0, 1] S1x4x254x254.size inb_S1x4x256x256_S1x4x254x254_0_0_0_1
/-- Patch plane 1 = 3·0 + 1 of the input block, every channel. -/
abbrev rI1 : Rect S1x4x9x254x254 := Rect.unit (s := S1x4x9x254x254) ![0, 0, 1, 0, 0] S1x4x1x254x254.size inb_S1x4x9x254x254_S1x4x1x254x254_0_0_1_0_0
/-- The 254 × 254 window of the output block that kernel offset (0, 2) adds into: rows 0‥253, columns 2‥255, every channel. -/
abbrev rO02 : Rect S1x4x256x256 := Rect.unit (s := S1x4x256x256) ![0, 0, 0, 2] S1x4x254x254.size inb_S1x4x256x256_S1x4x254x254_0_0_0_2
/-- Patch plane 2 = 3·0 + 2 of the input block, every channel. -/
abbrev rI2 : Rect S1x4x9x254x254 := Rect.unit (s := S1x4x9x254x254) ![0, 0, 2, 0, 0] S1x4x1x254x254.size inb_S1x4x9x254x254_S1x4x1x254x254_0_0_2_0_0
/-- The 254 × 254 window of the output block that kernel offset (1, 0) adds into: rows 1‥254, columns 0‥253, every channel. -/
abbrev rO10 : Rect S1x4x256x256 := Rect.unit (s := S1x4x256x256) ![0, 0, 1, 0] S1x4x254x254.size inb_S1x4x256x256_S1x4x254x254_0_0_1_0
/-- Patch plane 3 = 3·1 + 0 of the input block, every channel. -/
abbrev rI3 : Rect S1x4x9x254x254 := Rect.unit (s := S1x4x9x254x254) ![0, 0, 3, 0, 0] S1x4x1x254x254.size inb_S1x4x9x254x254_S1x4x1x254x254_0_0_3_0_0
/-- The 254 × 254 window of the output block that kernel offset (1, 1) adds into: rows 1‥254, columns 1‥254, every channel. -/
abbrev rO11 : Rect S1x4x256x256 := Rect.unit (s := S1x4x256x256) ![0, 0, 1, 1] S1x4x254x254.size inb_S1x4x256x256_S1x4x254x254_0_0_1_1
/-- Patch plane 4 = 3·1 + 1 of the input block, every channel. -/
abbrev rI4 : Rect S1x4x9x254x254 := Rect.unit (s := S1x4x9x254x254) ![0, 0, 4, 0, 0] S1x4x1x254x254.size inb_S1x4x9x254x254_S1x4x1x254x254_0_0_4_0_0
/-- The 254 × 254 window of the output block that kernel offset (1, 2) adds into: rows 1‥254, columns 2‥255, every channel. -/
abbrev rO12 : Rect S1x4x256x256 := Rect.unit (s := S1x4x256x256) ![0, 0, 1, 2] S1x4x254x254.size inb_S1x4x256x256_S1x4x254x254_0_0_1_2
/-- Patch plane 5 = 3·1 + 2 of the input block, every channel. -/
abbrev rI5 : Rect S1x4x9x254x254 := Rect.unit (s := S1x4x9x254x254) ![0, 0, 5, 0, 0] S1x4x1x254x254.size inb_S1x4x9x254x254_S1x4x1x254x254_0_0_5_0_0
/-- The 254 × 254 window of the output block that kernel offset (2, 0) adds into: rows 2‥255, columns 0‥253, every channel. -/
abbrev rO20 : Rect S1x4x256x256 := Rect.unit (s := S1x4x256x256) ![0, 0, 2, 0] S1x4x254x254.size inb_S1x4x256x256_S1x4x254x254_0_0_2_0
/-- Patch plane 6 = 3·2 + 0 of the input block, every channel. -/
abbrev rI6 : Rect S1x4x9x254x254 := Rect.unit (s := S1x4x9x254x254) ![0, 0, 6, 0, 0] S1x4x1x254x254.size inb_S1x4x9x254x254_S1x4x1x254x254_0_0_6_0_0
/-- The 254 × 254 window of the output block that kernel offset (2, 1) adds into: rows 2‥255, columns 1‥254, every channel. -/
abbrev rO21 : Rect S1x4x256x256 := Rect.unit (s := S1x4x256x256) ![0, 0, 2, 1] S1x4x254x254.size inb_S1x4x256x256_S1x4x254x254_0_0_2_1
/-- Patch plane 7 = 3·2 + 1 of the input block, every channel. -/
abbrev rI7 : Rect S1x4x9x254x254 := Rect.unit (s := S1x4x9x254x254) ![0, 0, 7, 0, 0] S1x4x1x254x254.size inb_S1x4x9x254x254_S1x4x1x254x254_0_0_7_0_0
/-- The 254 × 254 window of the output block that kernel offset (2, 2) adds into: rows 2‥255, columns 2‥255, every channel. -/
abbrev rO22 : Rect S1x4x256x256 := Rect.unit (s := S1x4x256x256) ![0, 0, 2, 2] S1x4x254x254.size inb_S1x4x256x256_S1x4x254x254_0_0_2_2
/-- Patch plane 8 = 3·2 + 2 of the input block, every channel. -/
abbrev rI8 : Rect S1x4x9x254x254 := Rect.unit (s := S1x4x9x254x254) ![0, 0, 8, 0, 0] S1x4x1x254x254.size inb_S1x4x9x254x254_S1x4x1x254x254_0_0_8_0_0

/-- The zeroed block: what the one store through the whole block leaves. -/
def acc0 : Vec F S1x4x256x256 .f32 := rFull.overlay (View.canon []) (k0_pay3 (F := F))
/-- After offset (0, 0): window (0, 0) plus plane 0. -/
def acc1 (x : Vec F S1x4x9x254x254 .f32) : Vec F S1x4x256x256 .f32 :=
  rO00.overlay (acc0 (F := F)) (k0_pay4 (View.ld x rI0) (View.ld (acc0 (F := F)) rO00))
/-- After offset (0, 1). -/
def acc2 (x : Vec F S1x4x9x254x254 .f32) : Vec F S1x4x256x256 .f32 :=
  rO01.overlay (acc1 x) (k0_pay5 (View.ld x rI1) (View.ld (acc1 x) rO01))
/-- After offset (0, 2). -/
def acc3 (x : Vec F S1x4x9x254x254 .f32) : Vec F S1x4x256x256 .f32 :=
  rO02.overlay (acc2 x) (k0_pay6 (View.ld x rI2) (View.ld (acc2 x) rO02))
/-- After offset (1, 0). -/
def acc4 (x : Vec F S1x4x9x254x254 .f32) : Vec F S1x4x256x256 .f32 :=
  rO10.overlay (acc3 x) (k0_pay7 (View.ld x rI3) (View.ld (acc3 x) rO10))
/-- After offset (1, 1). -/
def acc5 (x : Vec F S1x4x9x254x254 .f32) : Vec F S1x4x256x256 .f32 :=
  rO11.overlay (acc4 x) (k0_pay9 (k0_pay8 (View.ld x rI4) (View.ld (acc4 x) rO11)))
/-- After offset (1, 2). -/
def acc6 (x : Vec F S1x4x9x254x254 .f32) : Vec F S1x4x256x256 .f32 :=
  rO12.overlay (acc5 x) (k0_pay10 (View.ld x rI5) (View.ld (acc5 x) rO12))
/-- After offset (2, 0). -/
def acc7 (x : Vec F S1x4x9x254x254 .f32) : Vec F S1x4x256x256 .f32 :=
  rO20.overlay (acc6 x) (k0_pay11 (View.ld x rI6) (View.ld (acc6 x) rO20))
/-- After offset (2, 1). -/
def acc8 (x : Vec F S1x4x9x254x254 .f32) : Vec F S1x4x256x256 .f32 :=
  rO21.overlay (acc7 x) (k0_pay1 (k0_pay12 (View.ld x rI7) (View.ld (acc7 x) rO21)))
/-- After offset (2, 2): all nine additions made. -/
def acc9 (x : Vec F S1x4x9x254x254 .f32) : Vec F S1x4x256x256 .f32 :=
  rO22.overlay (acc8 x) (k0_pay2 (View.ld x rI8) (View.ld (acc8 x) rO22))

/-- The whole-block rectangle's offsets are zero. -/
theorem rFull_off : (![0, 0, 0, 0] : Fin 4 → ℕ) = fun _ => 0 := funext fun a => by fin_cases a <;> rfl

/-- The zeroed block is the zero payload at every index. -/
theorem acc0_eq : acc0 (F := F) = k0_pay3 (F := F) := by
  show View.canon (Val := Elt F) [(⟨rFull, k0_pay3 (F := F)⟩ : View.Piece (Elt F) S1x4x256x256 .f32)] = _
  exact View.canon_unit_zero (Val := Elt F) (e := .f32) rFull_off inb_S1x4x256x256_S1x4x256x256_0_0_0_0 (k0_pay3 (F := F))

/-- What the body leaves in the output block. -/
def OUT (x : Vec F S1x4x9x254x254 .f32) : Vec F S1x4x256x256 .f32 := acc9 x

end Cert.Proof.KI

end
-- ==== Proof.Body.lean ====
/-
  The body of the overlap-add kernel at one grid point, for every float instance: run on whole staging buffers, the input's
  holding the block `x`, it ends with the input's buffer as it was and the output's holding `OUT x` — the zeroed block
  with the nine shifted patch planes added in, one window after the other (`Out.lean`). The buffer the run leaves is a
  list of ten stores, each later store's value computed from a load of the buffer as the earlier stores left it; the
  first store covers the whole block, so the buffer's contents are the stores' canonical contents, which unfold, store
  by store, to `acc 9`.
  Then the pipeline's proof data (each point leaves the input block in place and `OUT` of it in the output's buffer), the
  body obligation at every point, the run of @main and the frame.
-/
import proofs.«150232_j14559939133583_1_alg».proof.Proof.Out
import proofs.«150232_j14559939133583_1_alg».proof.Proof.Gen.KernelIdeal.Frame
import Idealize.ShloMosaic.Lib.Pipeline.Value

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf ΦA)

variable {F : FTy → Type} [FloatOps F]

local notation "𝕄" => MT nD τ sig Unit (Elt F) ℕ (UR sig nD τ) ℕ

/-! ## The body's triple -/

set_option maxHeartbeats 1000000 in
/-- On whole staging buffers — the input's at `x0`, the output's at anything — the body runs to the continuation holding
    the input's as it was and the output's at `OUT x0`. -/
theorem sound_kernel (c : Dev nD) (i : grid0.Coords) (arg2 : Memref sig .tc .vmem S1x4x9x254x254 .f32) (harg2 : arg2.IsWhole)
    (arg3 : Memref sig .tc .vmem S1x4x256x256 .f32) (harg3 : arg3.IsWhole) (x0 : Vec F S1x4x9x254x254 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (OUT x0)) -∗ K ⟨⟩))
      ⊢ wp frame (wpE (defs₀ (F := F)) Variants.none c none) Set.univ (cc0__fold_kernel i arg2 harg2 arg3 harg3) K := by
  simp only [cc0__fold_kernel_eq_skeleton]; unfold cc0__fold_kernel_skel
  simp only [k0_part1_eq_skeleton, k0_part2_eq_skeleton, k0_part3_eq_skeleton]
  unfold owns
  iintro ⟨⟨%f0, %hf0, H0⟩, ⟨%d1, %f1, -, H1⟩, Hk⟩
  obtain rfl := harg2.eq_unread hf0
  sl_exec
  sl_step
  iapply Hk
  isplitl [H0]
  · iexists _; isplitr; · ipureintro; exact harg2.read_unread _
    iexact H0
  iexists _; isplitr; swap; · iexact H1
  ipureintro
  rw [View.read_writes_eq_canon _ _ _ (View.cover_of_wholeMem _ (by sl_whole_mem))]
  sl_unfold_run_names
  simp only [View.readCov_eq_canon', View.readAt_eq_ld, harg2.read_unread, View.canon_cons]
  rfl

/-! ## The pipeline's proof data -/

variable (m : (ℓ : Loc nD τ sig) → Buf (Elt F) ℓ) (ρ : Dev nD → PrngReg)

/-- The proof data of the one pipeline on core `c`: the arrays as the region finds them; after the body at point `t` the
    input's buffer at its block and the output's at `OUT` of that block; the class's invariant (the scoped rest and the
    generator register, neither touched); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => OUT (iblk m c 0 t)
  Φ _ := ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = OUT (iblk m c 0 t) := by dsimp only [dats]

/-- The input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

/-- The body at any point: the input's buffer holds its block, whatever the output's buffer holds is overwritten, so
    `sound_kernel` applies; the invariant and what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1]
  iintro ⟨HΦ, Ho, ⟨%d0, H0⟩, ⟨%d1, H1⟩⟩
  iapply (sound_kernel c (grid0.coords t) _ _ _ _ (iblk m c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, each array of the pipeline ending
    at what the library computes from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := fun _ _ => rfl) (hΦ := fun _ _ => rfl)

/-- The frame: @main runs and its argument array ends unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

end Cert.Proof.KI

end
-- ==== Proof.Spec.lean ====
/-
  The overlap-add ("fold", col2im) specification. The input `x : [8, 288, 64516]` holds, for each batch `b` and channel
  `c` (of 32), nine patch planes `k = 3·kh + kw` (row `9·c + k`), each a 254 × 254 grid of patch positions `(oh, ow)`
  (column `254·oh + ow`). The result at `(b, c, h, w)` is the sum, over the nine kernel offsets `(kh, kw)`, of the
  entry of plane `3·kh + kw` at patch position `(h - kh, w - kw)`, for those offsets that reach `(h, w)`:
  `kh ≤ h < kh + 254` and `kw ≤ w < kw + 254`.
  `G` states it over the whole input, `GB` over one grid point's block (one batch, four channels).
  Coordinates are natural numbers throughout, so that the arithmetic is `omega`'s.
-/
import Idealize.ShloMosaic.PureOps.Ideal
import Idealize.ShloMosaic.Lib.ValueIdx

noncomputable section

open scoped BigOperators

namespace Cert.Fold

open Idealize.ShloMosaic Idealize.ShloMosaic.ValueIdx

/-- Kernel offset `k` reaches output coordinate `p`: `p - k` is a patch coordinate, `0 ≤ p - k < 254`. -/
def reach (k p : ℕ) : Prop := k ≤ p ∧ p < k + 254

instance (k p : ℕ) : Decidable (reach k p) := by unfold reach; infer_instance

/-- The input read at batch `b`, channel `c`, patch plane `k`, patch position `(oh, ow)`: row `9·c + k`, column
    `254·oh + ow` (zero off the array, which no use below meets). -/
def src (x : (⟨3, ![8, 288, 64516]⟩ : Shape).Idx → EReal) (b c k oh ow : ℕ) : EReal :=
  if h : b < 8 ∧ c * 9 + k < 288 ∧ oh * 254 + ow < 64516 then
    x (ix3 ⟨b, h.1⟩ ⟨c * 9 + k, h.2.1⟩ ⟨oh * 254 + ow, h.2.2⟩)
  else 0

/-- The overlap-add of the whole input. -/
def G (x : (⟨3, ![8, 288, 64516]⟩ : Shape).Idx → EReal) : (⟨4, ![8, 32, 256, 256]⟩ : Shape).Idx → EReal := fun y =>
  ∑ kh : Fin 3, ∑ kw : Fin 3,
    if reach kh.val (y 2).val ∧ reach kw.val (y 3).val then
      src x (y 0).val (y 1).val (3 * kh.val + kw.val) ((y 2).val - kh.val) ((y 3).val - kw.val)
    else 0

/-- One grid point's input block (one batch, four channels, nine planes of 254 × 254) read at channel `cc`, plane `k`,
    patch position `(oh, ow)` (zero off the block). -/
def srcB (x : (⟨5, ![1, 4, 9, 254, 254]⟩ : Shape).Idx → EReal) (cc k oh ow : ℕ) : EReal :=
  if h : cc < 4 ∧ k < 9 ∧ oh < 254 ∧ ow < 254 then
    x (ix5 (0 : Fin 1) ⟨cc, h.1⟩ ⟨k, h.2.1⟩ ⟨oh, h.2.2.1⟩ ⟨ow, h.2.2.2⟩)
  else 0

/-- The overlap-add of one block: what one grid point computes. -/
def GB (x : (⟨5, ![1, 4, 9, 254, 254]⟩ : Shape).Idx → EReal) : (⟨4, ![1, 4, 256, 256]⟩ : Shape).Idx → EReal := fun y =>
  ∑ kh : Fin 3, ∑ kw : Fin 3,
    if reach kh.val (y 2).val ∧ reach kw.val (y 3).val then
      srcB x (y 1).val (3 * kh.val + kw.val) ((y 2).val - kh.val) ((y 3).val - kw.val)
    else 0

/-- The flat position, in the 256 × 256 output plane, that the reference adds flat patch position
    `n = ((kh·3 + kw)·254 + oh)·254 + ow` of a channel's nine planes to: `(kh + oh)·256 + (kw + ow)`. -/
def tgt (n : ℕ) : ℕ := (n / 193548 + n / 254 % 254) * 256 + (n / 64516 % 3 + n % 254)

/-- It lies in the plane. -/
theorem tgt_lt {n : ℕ} (h : n < 580644) : tgt n < 65536 := by
  unfold tgt
  have h1 : n / 193548 < 3 := by omega
  have h2 : n / 254 % 254 < 254 := Nat.mod_lt _ (by decide)
  have h3 : n / 64516 % 3 < 3 := Nat.mod_lt _ (by decide)
  have h4 : n % 254 < 254 := Nat.mod_lt _ (by decide)
  omega

end Cert.Fold

end
-- ==== Proof.BlockValue.lean ====
/-
  What one grid point leaves, read at an index, over the extended reals: `OUT x` at channel `cc`, row `h`, column `w` is
  the sum over the kernel offsets `(kh, kw)` that reach `(h, w)` of `x` at plane `3·kh + kw`, position `(h - kh, w - kw)`
  — `Cert.Fold.GB x`. Each of the nine steps adds plane `k`'s entry inside its window and leaves the rest, and the
  zeroed block is the empty sum.

  The road: every offset stores the same value through its window — the window's entries plus the plane's entries
  (`windowSum`, read at an index by `windowSum_apply`); one step read at `(cc, h, w)` is the previous block's entry plus
  the offset's term, which is zero outside the window (`overlay_windowSum_apply`, for any offset); the nine steps in
  turn give the nine terms added to zero from the left, and the two sums over three offsets are the same nine terms
  grouped by rows.
-/
import proofs.«150232_j14559939133583_1_alg».proof.Proof.Out
import proofs.«150232_j14559939133583_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Proof.KI

open Cert.KernelIdeal Cert.KernelIdeal.Gen
open Idealize.ShloMosaic Idealize.ShloMosaic.ValueIdx

/-- The value every offset stores through its window: the loaded window plus the loaded plane, both read as
    [4, 254, 254] and the sum read back as [1, 4, 254, 254]. -/
def windowSum (vin : Vec Ideal S1x4x1x254x254 .f32) (vout : Vec Ideal S1x4x254x254 .f32) : FVec Ideal S1x4x254x254 .f32 :=
  shapeCast S1x4x254x254
    (addf (shapeCast S4x254x254 vout shapeCasts_S1x4x254x254_S4x254x254)
      (shapeCast S4x254x254 vin shapeCasts_S1x4x1x254x254_S4x254x254))
    shapeCasts_S4x254x254_S1x4x254x254

/-! Each offset's stored value is that sum: seven are it as printed, and the two whose sum and last reading are printed
    apart are it composed. -/

theorem windowSum_pay4 (vin : Vec Ideal S1x4x1x254x254 .f32) (vout : Vec Ideal S1x4x254x254 .f32) :
    k0_pay4 (F := Ideal) vin vout = windowSum vin vout := rfl
theorem windowSum_pay5 (vin : Vec Ideal S1x4x1x254x254 .f32) (vout : Vec Ideal S1x4x254x254 .f32) :
    k0_pay5 (F := Ideal) vin vout = windowSum vin vout := rfl
theorem windowSum_pay6 (vin : Vec Ideal S1x4x1x254x254 .f32) (vout : Vec Ideal S1x4x254x254 .f32) :
    k0_pay6 (F := Ideal) vin vout = windowSum vin vout := rfl
theorem windowSum_pay7 (vin : Vec Ideal S1x4x1x254x254 .f32) (vout : Vec Ideal S1x4x254x254 .f32) :
    k0_pay7 (F := Ideal) vin vout = windowSum vin vout := rfl
theorem windowSum_pay9 (vin : Vec Ideal S1x4x1x254x254 .f32) (vout : Vec Ideal S1x4x254x254 .f32) :
    k0_pay9 (F := Ideal) (k0_pay8 (F := Ideal) vin vout) = windowSum vin vout := rfl
theorem windowSum_pay10 (vin : Vec Ideal S1x4x1x254x254 .f32) (vout : Vec Ideal S1x4x254x254 .f32) :
    k0_pay10 (F := Ideal) vin vout = windowSum vin vout := rfl
theorem windowSum_pay11 (vin : Vec Ideal S1x4x1x254x254 .f32) (vout : Vec Ideal S1x4x254x254 .f32) :
    k0_pay11 (F := Ideal) vin vout = windowSum vin vout := rfl
theorem windowSum_pay1 (vin : Vec Ideal S1x4x1x254x254 .f32) (vout : Vec Ideal S1x4x254x254 .f32) :
    k0_pay1 (F := Ideal) (k0_pay12 (F := Ideal) vin vout) = windowSum vin vout := rfl
theorem windowSum_pay2 (vin : Vec Ideal S1x4x1x254x254 .f32) (vout : Vec Ideal S1x4x254x254 .f32) :
    k0_pay2 (F := Ideal) vin vout = windowSum vin vout := rfl

/-- A [1, 4, 1, 254, 254] plane read as [4, 254, 254]. -/
theorem shapeCast_plane_apply (v : Vec Ideal S1x4x1x254x254 .f32) (cc : Fin 4) (p q : Fin 254) :
    shapeCast S4x254x254 v shapeCasts_S1x4x1x254x254_S4x254x254 (ix3 cc p q)
      = v (ix5 (0 : Fin 1) cc (0 : Fin 1) p q) :=
  shapeCast_apply v _ _ _ (by
    rw [Shape.rowMajor_val_five, Shape.rowMajor_val_three]
    show ((((0 * 4 + cc.val) * 1 + 0) * 254 + p.val) * 254 + q.val) = (cc.val * 254 + p.val) * 254 + q.val
    simp only [Nat.zero_mul, Nat.zero_add, Nat.mul_one, Nat.add_zero])

/-- The stored value at channel `cc`, window position `(p, q)`. -/
theorem windowSum_apply (vin : Vec Ideal S1x4x1x254x254 .f32) (vout : Vec Ideal S1x4x254x254 .f32) (cc : Fin 4) (p q : Fin 254) :
    windowSum vin vout (ix4 (0 : Fin 1) cc p q) = vout (ix4 (0 : Fin 1) cc p q) + vin (ix5 (0 : Fin 1) cc (0 : Fin 1) p q) := by
  unfold windowSum
  rw [shapeCast_abc_1abc_apply, addf_apply, shapeCast_1abc_abc_apply, shapeCast_plane_apply]

/-- One offset's step at an index: inside the window the block's entry gains the plane's entry at the shifted
    position; outside it the entry stays. -/
theorem overlay_windowSum_apply (kh kw k : ℕ)
    (inbO : ∀ a, (![0, 0, kh, kw] : Fin 4 → ℕ) a + S1x4x254x254.size a ≤ S1x4x256x256.size a)
    (inbI : ∀ a, (![0, 0, k, 0, 0] : Fin 5 → ℕ) a + S1x4x1x254x254.size a ≤ S1x4x9x254x254.size a)
    (x : Vec Ideal S1x4x9x254x254 .f32) (A : Vec Ideal S1x4x256x256 .f32) (cc : Fin 4) (h w : Fin 256) :
    (Rect.unit (s := S1x4x256x256) ![0, 0, kh, kw] S1x4x254x254.size inbO).overlay A
        (windowSum (View.ld x (Rect.unit (s := S1x4x9x254x254) ![0, 0, k, 0, 0] S1x4x1x254x254.size inbI))
          (View.ld A (Rect.unit (s := S1x4x256x256) ![0, 0, kh, kw] S1x4x254x254.size inbO)))
        (ix4 (0 : Fin 1) cc h w)
      = A (ix4 (0 : Fin 1) cc h w)
        + (if Cert.Fold.reach kh h.val ∧ Cert.Fold.reach kw w.val then
            Cert.Fold.srcB x cc.val k (h.val - kh) (w.val - kw) else 0) := by
  have hk : k < 9 := by have := inbI 2; simp at this; omega
  by_cases hc : Cert.Fold.reach kh h.val ∧ Cert.Fold.reach kw w.val
  · rw [if_pos hc]
    obtain ⟨⟨h1, h2⟩, ⟨w1, w2⟩⟩ := hc
    have hp : h.val - kh < 254 := by omega
    have hq : w.val - kw < 254 := by omega
    have hy : ix4 (0 : Fin 1) cc h w
        = (Rect.unit (s := S1x4x256x256) ![0, 0, kh, kw] S1x4x254x254.size inbO).emb
            (ix4 (0 : Fin 1) cc (⟨h.val - kh, hp⟩ : Fin 254) (⟨w.val - kw, hq⟩ : Fin 254)) := by
      funext a
      refine Fin.ext ?_
      rw [Rect.emb_apply]
      match a with
      | ⟨0, _⟩ => rfl
      | ⟨1, _⟩ => show cc.val = 0 + 1 * cc.val; omega
      | ⟨2, _⟩ => show h.val = kh + 1 * (h.val - kh); omega
      | ⟨3, _⟩ => show w.val = kw + 1 * (w.val - kw); omega
    conv_lhs => rw [hy]
    rw [Rect.overlay_emb, windowSum_apply]
    unfold Cert.Fold.srcB
    rw [dif_pos ⟨cc.isLt, hk, hp, hq⟩]
    refine congrArg₂ (· + ·) (congrArg A hy.symm) (congrArg x (funext fun a => Fin.ext ?_))
    match a with
    | ⟨0, _⟩ => rfl
    | ⟨1, _⟩ => show 0 + 1 * cc.val = cc.val; omega
    | ⟨2, _⟩ => show k + 1 * 0 = k; omega
    | ⟨3, _⟩ => show 0 + 1 * (h.val - kh) = h.val - kh; omega
    | ⟨4, _⟩ => show 0 + 1 * (w.val - kw) = w.val - kw; omega
  · rw [if_neg hc, add_zero]
    refine Rect.overlay_of_not_mem _ _ _ (fun hm => hc ?_)
    have hm' := Rect.mem_set_unit.mp hm
    have h2 : kh ≤ h.val ∧ h.val < kh + 254 := hm' 2
    have h3 : kw ≤ w.val ∧ w.val < kw + 254 := hm' 3
    exact ⟨h2, h3⟩

/-- The term offset `(kh, kw)` contributes at row `h`, column `w` of channel `cc`. -/
def offsetTerm (x : Vec Ideal S1x4x9x254x254 .f32) (cc : Fin 4) (h w : Fin 256) (kh kw : ℕ) : EReal :=
  if Cert.Fold.reach kh h.val ∧ Cert.Fold.reach kw w.val then
    Cert.Fold.srcB x cc.val (3 * kh + kw) (h.val - kh) (w.val - kw) else 0

/-- The zeroed block reads zero. -/
theorem acc0_apply (cc : Fin 4) (h w : Fin 256) : acc0 (F := Ideal) (ix4 (0 : Fin 1) cc h w) = 0 := by
  rw [acc0_eq]
  unfold k0_pay3
  rw [shapeCast_abc_1abc_apply, broadcast_apply]
  exact Ideal.ofBits_zero_f32

/-! The nine steps in turn: each is the previous block's entry plus its offset's term. -/

theorem acc1_apply (x : Vec Ideal S1x4x9x254x254 .f32) (cc : Fin 4) (h w : Fin 256) :
    acc1 (F := Ideal) x (ix4 (0 : Fin 1) cc h w) = acc0 (F := Ideal) (ix4 (0 : Fin 1) cc h w) + offsetTerm x cc h w 0 0 := by
  unfold acc1
  rw [windowSum_pay4]
  exact overlay_windowSum_apply 0 0 0 _ _ x _ cc h w
theorem acc2_apply (x : Vec Ideal S1x4x9x254x254 .f32) (cc : Fin 4) (h w : Fin 256) :
    acc2 (F := Ideal) x (ix4 (0 : Fin 1) cc h w) = acc1 (F := Ideal) x (ix4 (0 : Fin 1) cc h w) + offsetTerm x cc h w 0 1 := by
  unfold acc2
  rw [windowSum_pay5]
  exact overlay_windowSum_apply 0 1 1 _ _ x _ cc h w
theorem acc3_apply (x : Vec Ideal S1x4x9x254x254 .f32) (cc : Fin 4) (h w : Fin 256) :
    acc3 (F := Ideal) x (ix4 (0 : Fin 1) cc h w) = acc2 (F := Ideal) x (ix4 (0 : Fin 1) cc h w) + offsetTerm x cc h w 0 2 := by
  unfold acc3
  rw [windowSum_pay6]
  exact overlay_windowSum_apply 0 2 2 _ _ x _ cc h w
theorem acc4_apply (x : Vec Ideal S1x4x9x254x254 .f32) (cc : Fin 4) (h w : Fin 256) :
    acc4 (F := Ideal) x (ix4 (0 : Fin 1) cc h w) = acc3 (F := Ideal) x (ix4 (0 : Fin 1) cc h w) + offsetTerm x cc h w 1 0 := by
  unfold acc4
  rw [windowSum_pay7]
  exact overlay_windowSum_apply 1 0 3 _ _ x _ cc h w
theorem acc5_apply (x : Vec Ideal S1x4x9x254x254 .f32) (cc : Fin 4) (h w : Fin 256) :
    acc5 (F := Ideal) x (ix4 (0 : Fin 1) cc h w) = acc4 (F := Ideal) x (ix4 (0 : Fin 1) cc h w) + offsetTerm x cc h w 1 1 := by
  unfold acc5
  rw [windowSum_pay9]
  exact overlay_windowSum_apply 1 1 4 _ _ x _ cc h w
theorem acc6_apply (x : Vec Ideal S1x4x9x254x254 .f32) (cc : Fin 4) (h w : Fin 256) :
    acc6 (F := Ideal) x (ix4 (0 : Fin 1) cc h w) = acc5 (F := Ideal) x (ix4 (0 : Fin 1) cc h w) + offsetTerm x cc h w 1 2 := by
  unfold acc6
  rw [windowSum_pay10]
  exact overlay_windowSum_apply 1 2 5 _ _ x _ cc h w
theorem acc7_apply (x : Vec Ideal S1x4x9x254x254 .f32) (cc : Fin 4) (h w : Fin 256) :
    acc7 (F := Ideal) x (ix4 (0 : Fin 1) cc h w) = acc6 (F := Ideal) x (ix4 (0 : Fin 1) cc h w) + offsetTerm x cc h w 2 0 := by
  unfold acc7
  rw [windowSum_pay11]
  exact overlay_windowSum_apply 2 0 6 _ _ x _ cc h w
theorem acc8_apply (x : Vec Ideal S1x4x9x254x254 .f32) (cc : Fin 4) (h w : Fin 256) :
    acc8 (F := Ideal) x (ix4 (0 : Fin 1) cc h w) = acc7 (F := Ideal) x (ix4 (0 : Fin 1) cc h w) + offsetTerm x cc h w 2 1 := by
  unfold acc8
  rw [windowSum_pay1]
  exact overlay_windowSum_apply 2 1 7 _ _ x _ cc h w
theorem acc9_apply (x : Vec Ideal S1x4x9x254x254 .f32) (cc : Fin 4) (h w : Fin 256) :
    acc9 (F := Ideal) x (ix4 (0 : Fin 1) cc h w) = acc8 (F := Ideal) x (ix4 (0 : Fin 1) cc h w) + offsetTerm x cc h w 2 2 := by
  unfold acc9
  rw [windowSum_pay2]
  exact overlay_windowSum_apply 2 2 8 _ _ x _ cc h w

/-- The block's overlap-add at an index, its nine terms written out. -/
theorem GB_apply_terms (x : Vec Ideal S1x4x9x254x254 .f32) (cc : Fin 4) (h w : Fin 256) :
    Cert.Fold.GB x (ix4 (0 : Fin 1) cc h w)
      = (offsetTerm x cc h w 0 0 + offsetTerm x cc h w 0 1 + offsetTerm x cc h w 0 2)
        + (offsetTerm x cc h w 1 0 + offsetTerm x cc h w 1 1 + offsetTerm x cc h w 1 2)
        + (offsetTerm x cc h w 2 0 + offsetTerm x cc h w 2 1 + offsetTerm x cc h w 2 2) := by
  show (∑ kh : Fin 3, ∑ kw : Fin 3, offsetTerm x cc h w kh.val kw.val) = _
  rw [Fin.sum_univ_three, Fin.sum_univ_three, Fin.sum_univ_three, Fin.sum_univ_three]
  rfl

/-- One grid point computes the overlap-add of its block. -/
theorem OUT_eq_GB (x : Vec Ideal S1x4x9x254x254 .f32) : OUT (F := Ideal) x = Cert.Fold.GB x := by
  funext y
  obtain ⟨b, cc, h, w, rfl⟩ : ∃ (b : Fin 1) (cc : Fin 4) (h w : Fin 256), y = ix4 b cc h w :=
    ⟨y 0, y 1, y 2, y 3, eq_ix4 y⟩
  obtain rfl : b = 0 := Subsingleton.elim _ _
  rw [GB_apply_terms]
  show acc9 (F := Ideal) x (ix4 (0 : Fin 1) cc h w) = _
  rw [acc9_apply, acc8_apply, acc7_apply, acc6_apply, acc5_apply, acc4_apply, acc3_apply, acc2_apply, acc1_apply,
    acc0_apply, zero_add]
  simp only [add_assoc]

end Cert.Proof.KI

end
-- ==== Proof.Final.lean ====
/-
  From blocks to the array: the grid is 8 batches by 8 channel tiles of 4; point `(b, ct)` reads block `(b, ct)` of the
  reshaped input (channels `4·ct ‥ 4·ct + 3`, all nine planes) and writes block `(b, ct)` of the result.
  The reshaped input at `(b, ch, k, oh, ow)` is the argument at `(b, 9·ch + k, 254·oh + ow)` (the two have the same
  row-major position), so block `(b, ct)` of it at `(cc, k, oh, ow)` is the argument read at batch `b`, channel
  `4·ct + cc`, plane `k`, patch position `(oh, ow)`. Rows and columns are not blocked, so the kernel offsets that reach
  `(h, w)` are the same in the block and in the array, and the block's overlap-add at `(cc, h, w)` is the array's at
  `(b, 4·ct + cc, h, w)`. Hence each block of the result is that block of `Cert.Fold.G` of the input; the blocks tile the
  result (index `(b, ch, h, w)` lies in the block of point `8·b + ch / 4`), so the result array ends at `G`.
  Then the kernel's run with its result named.
-/
import proofs.«150232_j14559939133583_1_alg».proof.Proof.Body
import proofs.«150232_j14559939133583_1_alg».proof.Proof.BlockValue
import Idealize.ShloMosaic.Lib.StableHlo.Run

set_option maxRecDepth 16384

noncomputable section

namespace Cert.Proof.KI

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

variable (m : (ℓ : Loc nD τ sig) → Buf (Elt Ideal) ℓ) (ρ : Dev nD → PrngReg)

/-- The pipeline's input array, as the region finds it, is the argument array reshaped. -/
theorem reshaped_eq (c : Dev nD) : (V m c main_v0 : S8x32x9x254x254.Idx → EReal)
    = shapeCast S8x32x9x254x254 (m ((c.tc : Thread nD τ).loc main_arg0)) Facts₀.shapeCasts_S8x288x64516_S8x32x9x254x254 := by
  dsimp only [Gen.V, Gen.hostOps0]; after_results; rfl

/-- The two index maps over the grid: point `t` is batch `t / 8` and channel tile `t % 8`, at offset zero on the
    unblocked axes. -/
theorem grid_index : ∀ t : Fin cfg0.N,
    win0_0.index t (0 : Fin 5) = t.val / 8 ∧ win0_0.index t (1 : Fin 5) = t.val % 8 ∧ win0_0.index t (2 : Fin 5) = 0
    ∧ win0_0.index t (3 : Fin 5) = 0 ∧ win0_0.index t (4 : Fin 5) = 0
    ∧ win0_1.index t (0 : Fin 4) = t.val / 8 ∧ win0_1.index t (1 : Fin 4) = t.val % 8 ∧ win0_1.index t (2 : Fin 4) = 0
    ∧ win0_1.index t (3 : Fin 4) = 0 :=
  (by decide +kernel : ∀ t : Fin grid0.N, _)

/-- The reshaped input at `(b, ch, k, oh, ow)` is the argument at `(b, 9·ch + k, 254·oh + ow)`: both sit at row-major
    position `(((32·b + ch)·9 + k)·254 + oh)·254 + ow`. -/
theorem reshaped_apply (c : Dev nD) (b : Fin 8) (ch : Fin 32) (k : Fin 9) (oh ow : Fin 254) :
    (V m c main_v0 : S8x32x9x254x254.Idx → EReal) (ix5 b ch k oh ow)
      = (m ((c.tc : Thread nD τ).loc main_arg0) : S8x288x64516.Idx → EReal)
          (ix3 b ⟨ch.val * 9 + k.val, by omega⟩ ⟨oh.val * 254 + ow.val, by omega⟩) := by
  rw [reshaped_eq]
  refine shapeCast_apply _ _ _ _ ?_
  show ((⟨3, ![8, 288, 64516]⟩ : Shape).rowMajor _).val = ((⟨5, ![8, 32, 9, 254, 254]⟩ : Shape).rowMajor _).val
  rw [Shape.rowMajor_val_three, Shape.rowMajor_val_five]
  show ((b.val * 288 + (ch.val * 9 + k.val)) * 64516 + (oh.val * 254 + ow.val))
    = ((((b.val * 32 + ch.val) * 9 + k.val) * 254 + oh.val) * 254 + ow.val)
  omega

/-- Point `t`'s input block at `(cc, k, oh, ow)` is the argument read at batch `t / 8`, channel `4·(t % 8) + cc`,
    plane `k`, patch position `(oh, ow)`. -/
theorem inBlock_apply (c : Dev nD) (t : Fin cfg0.N) (cc k oh ow : ℕ) (h : cc < 4 ∧ k < 9 ∧ oh < 254 ∧ ow < 254) :
    (iblk m c 0 t : Vec Ideal S1x4x9x254x254 .f32) (ix5 (0 : Fin 1) ⟨cc, h.1⟩ ⟨k, h.2.1⟩ ⟨oh, h.2.2.1⟩ ⟨ow, h.2.2.2⟩)
      = Cert.Fold.src (m ((c.tc : Thread nD τ).loc main_arg0)) (t.val / 8) (4 * (t.val % 8) + cc) k oh ow := by
  unfold iblk
  rw [View.read_apply]
  show (V m c main_v0 : S8x32x9x254x254.Idx → EReal) _ = _
  have ht : t.val < 64 := lt_of_lt_of_eq t.isLt N_0
  obtain ⟨e0, e1, e2, e3, e4, -⟩ := grid_index t
  have hs : 4 * (t.val % 8) + cc < 32 := by omega
  have hemb : ((cfg0.win 0).blk t).view.emb (ix5 (0 : Fin 1) ⟨cc, h.1⟩ ⟨k, h.2.1⟩ ⟨oh, h.2.2.1⟩ ⟨ow, h.2.2.2⟩)
      = ix5 (⟨t.val / 8, by omega⟩ : Fin 8) (⟨4 * (t.val % 8) + cc, hs⟩ : Fin 32) (⟨k, h.2.1⟩ : Fin 9) (⟨oh, h.2.2.1⟩ : Fin 254) (⟨ow, h.2.2.2⟩ : Fin 254) := by
    funext a; apply Fin.ext
    match a with
    | ⟨0, _⟩ => show win0_0.index t (0 : Fin 5) * 1 + 1 * 0 = t.val / 8; omega
    | ⟨1, _⟩ => show win0_0.index t (1 : Fin 5) * 4 + 1 * cc = 4 * (t.val % 8) + cc; omega
    | ⟨2, _⟩ => show win0_0.index t (2 : Fin 5) * 9 + 1 * k = k; omega
    | ⟨3, _⟩ => show win0_0.index t (3 : Fin 5) * 254 + 1 * oh = oh; omega
    | ⟨4, _⟩ => show win0_0.index t (4 : Fin 5) * 254 + 1 * ow = ow; omega
  rw [hemb, reshaped_apply]
  unfold Cert.Fold.src
  rw [dif_pos ⟨by omega, by omega, by omega⟩]

/-- A block `xb` that is batch `b`, channels `4·ct ‥ 4·ct + 3` of `x` has, at `(cc, h, w)`, the overlap-add that `x` has at
    `(b, 4·ct + cc, h, w)`: the same offsets reach `(h, w)`, and each reaching offset reads the same entry. -/
theorem foldBlock_eq_fold_at (x : (⟨3, ![8, 288, 64516]⟩ : Shape).Idx → EReal) (xb : (⟨5, ![1, 4, 9, 254, 254]⟩ : Shape).Idx → EReal)
    (b ct : ℕ)
    (hx : ∀ (cc k oh ow : ℕ) (h : cc < 4 ∧ k < 9 ∧ oh < 254 ∧ ow < 254),
      xb (ix5 (0 : Fin 1) ⟨cc, h.1⟩ ⟨k, h.2.1⟩ ⟨oh, h.2.2.1⟩ ⟨ow, h.2.2.2⟩) = Cert.Fold.src x b (4 * ct + cc) k oh ow)
    (yB : (⟨4, ![1, 4, 256, 256]⟩ : Shape).Idx) (yA : (⟨4, ![8, 32, 256, 256]⟩ : Shape).Idx)
    (h0 : (yA 0).val = b) (h1 : (yA 1).val = 4 * ct + (yB 1).val) (h2 : (yA 2).val = (yB 2).val) (h3 : (yA 3).val = (yB 3).val) :
    Cert.Fold.GB xb yB = Cert.Fold.G x yA := by
  unfold Cert.Fold.GB Cert.Fold.G
  rw [h0, h1, h2, h3]
  refine Finset.sum_congr rfl fun kh _ => Finset.sum_congr rfl fun kw _ => ?_
  have hkh : kh.val < 3 := kh.isLt
  have hkw : kw.val < 3 := kw.isLt
  have hc : (yB 1).val < 4 := (yB 1).isLt
  by_cases hr : Cert.Fold.reach kh.val (yB 2).val ∧ Cert.Fold.reach kw.val (yB 3).val
  · rw [if_pos hr, if_pos hr]
    obtain ⟨⟨r1, r2⟩, r3, r4⟩ := hr
    have hin : (yB 1).val < 4 ∧ 3 * kh.val + kw.val < 9 ∧ (yB 2).val - kh.val < 254 ∧ (yB 3).val - kw.val < 254 :=
      ⟨hc, by omega, by omega, by omega⟩
    unfold Cert.Fold.srcB
    rw [dif_pos hin]
    exact hx _ _ _ _ hin
  · rw [if_neg hr, if_neg hr]

/-- What point `t` writes back is its block of the overlap-add of the argument. -/
theorem writeBack_eq (c : Dev nD) (t : Fin cfg0.N) :
    (dats m 0 c).flushed 1 t
      = ((cfg0.win 1).blk t).view.read (Elt Ideal) (Cert.Fold.G (m ((c.tc : Thread nD τ).loc main_arg0))) := by
  show (cfg0.win 1).cut (grid0.coords t) ((dats m 0 c).after 1 t) = _
  rw [after0_1, OUT_eq_GB]
  funext y
  rw [View.read_apply]
  obtain ⟨-, -, -, -, -, e0, e1, e2, e3⟩ := grid_index t
  show Cert.Fold.GB (iblk m c 0 t) _ = Cert.Fold.G (m ((c.tc : Thread nD τ).loc main_arg0)) (((cfg0.win 1).blk t).view.emb y)
  refine foldBlock_eq_fold_at _ _ (t.val / 8) (t.val % 8) (inBlock_apply m c t) _ _ ?_ ?_ ?_ ?_
  · show win0_1.index t (0 : Fin 4) * 1 + 1 * (y 0).val = t.val / 8
    have : (y 0).val < 1 := (y 0).isLt
    omega
  · show win0_1.index t (1 : Fin 4) * 4 + 1 * (y 1).val = 4 * (t.val % 8) + (y 1).val
    omega
  · show win0_1.index t (2 : Fin 4) * 256 + 1 * (y 2).val = (y 2).val
    omega
  · show win0_1.index t (3 : Fin 4) * 256 + 1 * (y 3).val = (y 3).val
    omega

/-- An index of the result array is in point `t`'s block iff each coordinate is in the block's range on its axis. -/
theorem mem_outBlock (t : Fin cfg0.N) (i : S8x32x256x256.Idx) :
    i ∈ ((cfg0.win 1).blk t).view.set ↔ ∀ a : Fin 4, win0_1.index t a * S1x4x256x256.size a ≤ (i a).val
      ∧ (i a).val < win0_1.index t a * S1x4x256x256.size a + S1x4x256x256.size a := by
  show i ∈ ((View.whole main_v1).slice (win0_1.rect t)).set ↔ _
  rw [View.set_slice_whole, Rect.mem_set_unit]
  exact Iff.rfl

/-- The blocks tile the result: index `(b, ch, h, w)` is in the block of point `8·b + ch / 4`. -/
theorem outBlocks_cover (i : S8x32x256x256.Idx) :
    ∃ t : Fin cfg0.N, (cfg0.win 1).flush t = true ∧ i ∈ ((cfg0.win 1).blk t).view.set := by
  have hi0 : (i 0).val < 8 := (i 0).isLt
  have hi1 : (i 1).val < 32 := (i 1).isLt
  have hi2 : (i 2).val < 256 := (i 2).isLt
  have hi3 : (i 3).val < 256 := (i 3).isLt
  have hN : 8 * (i 0).val + (i 1).val / 4 < cfg0.N := lt_of_lt_of_eq (by omega : 8 * (i 0).val + (i 1).val / 4 < 64) N_0.symm
  refine ⟨⟨8 * (i 0).val + (i 1).val / 4, hN⟩, flush0_1 _, ?_⟩
  rw [mem_outBlock]
  obtain ⟨-, -, -, -, -, e0, e1, e2, e3⟩ := grid_index ⟨8 * (i 0).val + (i 1).val / 4, hN⟩
  have e0' : win0_1.index ⟨8 * (i 0).val + (i 1).val / 4, hN⟩ (0 : Fin 4) = (8 * (i 0).val + (i 1).val / 4) / 8 := e0
  have e1' : win0_1.index ⟨8 * (i 0).val + (i 1).val / 4, hN⟩ (1 : Fin 4) = (8 * (i 0).val + (i 1).val / 4) % 8 := e1
  intro a
  match a with
  | ⟨0, _⟩ =>
    show win0_1.index ⟨8 * (i 0).val + (i 1).val / 4, hN⟩ (0 : Fin 4) * 1 ≤ (i 0).val
      ∧ (i 0).val < win0_1.index ⟨8 * (i 0).val + (i 1).val / 4, hN⟩ (0 : Fin 4) * 1 + 1
    omega
  | ⟨1, _⟩ =>
    show win0_1.index ⟨8 * (i 0).val + (i 1).val / 4, hN⟩ (1 : Fin 4) * 4 ≤ (i 1).val
      ∧ (i 1).val < win0_1.index ⟨8 * (i 0).val + (i 1).val / 4, hN⟩ (1 : Fin 4) * 4 + 4
    omega
  | ⟨2, _⟩ =>
    show win0_1.index ⟨8 * (i 0).val + (i 1).val / 4, hN⟩ (2 : Fin 4) * 256 ≤ (i 2).val
      ∧ (i 2).val < win0_1.index ⟨8 * (i 0).val + (i 1).val / 4, hN⟩ (2 : Fin 4) * 256 + 256
    omega
  | ⟨3, _⟩ =>
    show win0_1.index ⟨8 * (i 0).val + (i 1).val / 4, hN⟩ (3 : Fin 4) * 256 ≤ (i 3).val
      ∧ (i 3).val < win0_1.index ⟨8 * (i 0).val + (i 1).val / 4, hN⟩ (3 : Fin 4) * 256 + 256
    omega

/-- The result array after the run is the overlap-add of the argument array. -/
theorem final (c : Dev nD) :
    (dats m 0 c).arrAt 1 cfg0.N = Cert.Fold.G (m ((c.tc : Thread nD τ).loc main_arg0)) :=
  (dats m 0 c).arrAt_eq_of_cover 1 (Cert.Fold.G (m ((c.tc : Thread nD τ).loc main_arg0)))
    (fun t _ => writeBack_eq m c t) outBlocks_cover

/-- Every weakly fair execution of the idealized kernel's @main terminates with the result at the overlap-add of the
    argument and the argument unchanged. -/
theorem kernel_run : θ_run defs (onTc (τ := τ) (main (F := Ideal))) ⟨m, fun _ => 0, ρ⟩ (fun r => ∀ c : Dev nD,
      r.2.mem ((c.tc : Thread nD τ).loc main_v1) = Cert.Fold.G (m ((c.tc : Thread nD τ).loc main_arg0))
      ∧ r.2.mem ((c.tc : Thread nD τ).loc main_arg0) = m ((c.tc : Thread nD τ).loc main_arg0)) :=
  (θ_run defs _ _).mono (fun _ h c => ⟨((h c).1 1).trans (final m c),
      ((h c).2 main_arg0 (Pipeline.mem_restRefs_of main_arg0 (by decide) (by decide))).trans (V_main_arg0 m c)⟩)
    (run_main m ρ)

end Cert.Proof.KI

end
-- ==== Proof.RefIndex.lean ====
/-
  The reference's scatter indices. The reference builds, by integer arithmetic on 32-bit words, the table that sends flat
  patch position `n = ((kh·3 + kw)·254 + oh)·254 + ow` to the flat output position `(kh + oh)·256 + (kw + ow)`
  (`Cert.Fold.tgt n`); none of the sums wraps, and none is negative, so the "negative index" correction selects the sum itself.

  Three steps: the word arithmetic on four small naturals (`idx_word_arith`), the flat table before the correction read at
  row `q` (`idx_v33_word`: the reshape splits `q` into `(kh, kw, oh, ow)` by quotients and remainders, and each broadcast
  reads the one coordinate it keeps), and the correction, which compares a word below `2¹⁶` with zero (`idx_word`).
-/
import proofs.«150232_j14559939133583_1_alg».proof.Proof.Gen.ReferenceIdeal.Read
import proofs.«150232_j14559939133583_1_alg».proof.Proof.Spec

noncomputable section

namespace Cert.Proof.Ref

open Cert.ReferenceIdeal Cert.ReferenceIdeal.Gen Cert.ReferenceIdeal.Read
open Idealize.ShloMosaic Idealize.ShloMosaic.ValueIdx

/-- The word arithmetic of one table entry: `((oh·1 - 0) + kh·1)·256 + ((ow·1 - 0) + kw·1)` on 32-bit words is the word of
    the natural number `(kh + oh)·256 + (kw + ow)`; with `kh, kw < 3` and `oh, ow < 254` every intermediate value is below
    `2¹⁷`, so no operation wraps. -/
theorem idx_word_arith (kh oh kw ow : ℕ) (h1 : kh < 3) (h2 : oh < 254) (h3 : kw < 3) (h4 : ow < 254) :
    IntOp.addi
      (IntOp.muli (IntOp.addi (IntOp.subi (IntOp.muli (BitVec.ofNat 32 oh) 1#32) 0#32) (IntOp.muli (BitVec.ofNat 32 kh) 1#32)) 256#32)
      (IntOp.addi (IntOp.subi (IntOp.muli (BitVec.ofNat 32 ow) 1#32) 0#32) (IntOp.muli (BitVec.ofNat 32 kw) 1#32))
    = BitVec.ofNat 32 ((kh + oh) * 256 + (kw + ow)) := by
  unfold IntOp.addi IntOp.muli IntOp.subi
  apply BitVec.eq_of_toNat_eq
  simp only [BitVec.toNat_add, BitVec.toNat_mul, BitVec.toNat_sub, BitVec.toNat_ofNat]
  omega

/-- The flat table before the correction, at row `q`: the reshape reads the `[3, 3, 254, 254]` table at
    `(q / 193548, q / 64516 % 3, q / 254 % 254, q % 254) = (kh, kw, oh, ow)`, whose entry is the word of
    `(kh + oh)·256 + (kw + ow)`, which is `tgt q`. -/
theorem idx_v33_word (q : Fin 580644) :
    val_main_v33 (F := Ideal) (ix1 q) = BitVec.ofNat 32 (Cert.Fold.tgt q.val) := by
  simp only [val_main_v33_apply, val_main_v32_apply, val_main_v30_apply, val_main_v31_apply,
    val_main_v28_apply, val_main_v29_apply, val_main_v26_apply, val_main_v27_apply, val_main_c_5_apply,
    val_main_v25_apply, val_main_v12_apply, val_main_v10_apply, val_main_v11_apply,
    val_main_v23_apply, val_main_v24_apply, val_main_v9_apply, val_main_v8_apply, val_main_v22_apply, val_main_v21_apply,
    val_main_v4_apply, val_main_v7_apply, val_main_v17_apply, val_main_v20_apply,
    val_main_v2_apply, val_main_v3_apply, val_main_c_0_apply, val_main_v5_apply, val_main_v6_apply, val_main_c_1_apply,
    val_main_v15_apply, val_main_v16_apply, val_main_c_3_apply, val_main_v18_apply, val_main_v19_apply, val_main_c_4_apply,
    val_main_v0_apply, val_main_v1_apply, val_main_c_apply, val_main_v13_apply, val_main_v14_apply, val_main_c_2_apply]
  show _ = BitVec.ofNat 32 ((q.val / 193548 + q.val / 254 % 254) * 256 + (q.val / 64516 % 3 + q.val % 254))
  exact idx_word_arith (q.val / 193548) (q.val / 254 % 254) (q.val / 64516 % 3) (q.val % 254)
    (by omega) (by omega) (by omega) (by omega)

/-- A word of a natural number below `2¹⁶` reads, signed, as that number. -/
theorem idx_toInt_small (n : ℕ) (hn : n < 65536) : (BitVec.ofNat 32 n).toInt = (n : Int) := by
  rw [BitVec.toInt_ofNat']
  exact Int.bmod_eq_of_le (by omega) (by omega)

/-- The scatter index word of flat patch position `q` is its target's. -/
theorem idx_word (q : Fin 580644) :
    val_main_v41 (F := Ideal) (ix2 q (0 : Fin 1)) = BitVec.ofNat 32 (Cert.Fold.tgt q.val) := by
  -- the last broadcast reads row `q` of the flat table
  have hi : idx_main_v41 (ix2 q (0 : Fin 1)) = ix1 q := by
    funext a
    match a with
    | ⟨0, _⟩ => rfl
  rw [val_main_v41_apply, val_main_v40_apply, val_main_v37_apply, val_main_v36_apply, val_main_c_6_apply, hi, idx_v33_word]
  -- `tgt q < 2¹⁶` is not negative as a signed word: the comparison with zero fails and the selection keeps the word itself
  have hc : IntOp.cmpi .slt (BitVec.ofNat 32 (Cert.Fold.tgt q.val)) 0#32 = 0#1 := by
    apply eq_zero_of_ne_one
    rw [IntOp.cmpi_slt, idx_toInt_small _ (Cert.Fold.tgt_lt q.isLt)]
    show ¬ ((Cert.Fold.tgt q.val : ℕ) : Int) < 0
    omega
  rw [hc, select_zero]

end Cert.Proof.Ref

end
-- ==== Proof.RefScatter.lean ====
/-
  Where the reference's scatter lands an update. Its dimension numbers scatter along the last axis of a `[8, 32, 65536]`
  operand: update `(b, c, q)` of the `[8, 32, 580644]` updates goes to `(b, c, n)` where `n` is the index word at row `q`
  of the `[580644, 1]` index table, when that word is a position of the axis.

  On each operand axis the landing coordinate is a window start plus a window coordinate: axes 0 and 1 are window axes
  (start `0`, coordinate the update's `b`, `c`), axis 2 is the scattered, inserted axis (start the index word read signed,
  coordinate `0`). A word below `2¹⁶` reads signed as itself, so the three sums are `b < 8`, `c < 32`, `n < 65536`: in range,
  the update is kept, at `(b, c, n)`.
-/
import proofs.«150232_j14559939133583_1_alg».proof.Proof.Gen.ReferenceIdeal
import Idealize.ShloMosaic.Lib.ValueIdx

noncomputable section

namespace Cert.Proof.Ref

open Cert.ReferenceIdeal Cert.ReferenceIdeal.Gen
open Idealize.ShloMosaic Idealize.ShloMosaic.ValueIdx

/-- The scatter's dimension numbers, under a short name. -/
abbrev scatterD : ScatterDims S8x32x65536 S580644x1 S8x32x580644 :=
  scatter_S8x32x65536_S580644x1_S8x32x580644_01_2_2_1

/-- A word of a natural number below `2¹⁶` reads, signed, as that number. -/
theorem scatter_toInt_small (n : ℕ) (hn : n < 65536) : (BitVec.ofNat 32 n).toInt = (n : Int) := by
  rw [BitVec.toInt_ofNat']
  exact Int.bmod_eq_of_le (by omega) (by omega)

/-- Operand axis 0 is not one the index vector addresses: the window starts at `0` there. -/
theorem scatter_start_0 (b : Fin 8) (c : Fin 32) (q : Fin 580644) (idx : IVec S580644x1 32) :
    scatterD.start (ix3 b c q) idx ⟨0, by decide⟩ = 0 := by
  unfold ScatterDims.start
  rw [dif_neg (by decide)]

/-- Nor is operand axis 1. -/
theorem scatter_start_1 (b : Fin 8) (c : Fin 32) (q : Fin 580644) (idx : IVec S580644x1 32) :
    scatterD.start (ix3 b c q) idx ⟨1, by decide⟩ = 0 := by
  unfold ScatterDims.start
  rw [dif_neg (by decide)]

/-- Operand axis 2 is the one the (one-component) index vector addresses: the window starts at the index table's word at
    row `q` (the update's coordinate on its one scatter axis) and column `0`, read signed. -/
theorem scatter_start_2 (b : Fin 8) (c : Fin 32) (q : Fin 580644) (idx : IVec S580644x1 32) :
    scatterD.start (ix3 b c q) idx ⟨2, by decide⟩ = (idx (ix2 q (0 : Fin 1))).toInt := by
  unfold ScatterDims.start
  rw [dif_pos (by decide)]
  congr 2
  funext a
  refine Fin.ext ?_
  match a with
  | ⟨0, _⟩ => rfl
  | ⟨1, _⟩ => rfl

/-- Operand axis 0 is kept (not inserted), first among the kept axes: its window coordinate is the update's on its first
    window axis, `b`. -/
theorem scatter_window_0 (b : Fin 8) (c : Fin 32) (q : Fin 580644) :
    scatterD.window (ix3 b c q) ⟨0, by decide⟩ = b.val := by
  unfold ScatterDims.window
  rw [dif_pos (by decide)]
  rfl

/-- Operand axis 1 is kept, second among the kept axes: its window coordinate is `c`. -/
theorem scatter_window_1 (b : Fin 8) (c : Fin 32) (q : Fin 580644) :
    scatterD.window (ix3 b c q) ⟨1, by decide⟩ = c.val := by
  unfold ScatterDims.window
  rw [dif_pos (by decide)]
  rfl

/-- Operand axis 2 is the inserted one: its window coordinate is `0`. -/
theorem scatter_window_2 (b : Fin 8) (c : Fin 32) (q : Fin 580644) :
    scatterD.window (ix3 b c q) ⟨2, by decide⟩ = 0 := by
  unfold ScatterDims.window
  rw [dif_neg (by decide)]

/-- Update `(b, c, q)` lands at `(b, c, n)`, `n` the (in-range) word the index table holds at row `q`. -/
theorem resultIdx_eq (b : Fin 8) (c : Fin 32) (q : Fin 580644) (idx : IVec S580644x1 32) (n : ℕ) (hn : n < 65536)
    (hidx : idx (ix2 q (0 : Fin 1)) = BitVec.ofNat 32 n) :
    scatter_S8x32x65536_S580644x1_S8x32x580644_01_2_2_1.resultIdx? (ix3 b c q) idx
      = some (ix3 b c (⟨n, hn⟩ : Fin 65536)) := by
  show scatterD.resultIdx? (ix3 b c q) idx = _
  have hb : b.val < 8 := b.isLt
  have hc : c.val < 32 := c.isLt
  have h2 : scatterD.start (ix3 b c q) idx ⟨2, by decide⟩ = (n : Int) := by
    rw [scatter_start_2, hidx, scatter_toInt_small n hn]
  unfold ScatterDims.resultIdx?
  rw [dif_pos]
  · -- the landing index, axis by axis: `0 + b`, `0 + c`, `n + 0`
    congr 1
    funext a
    refine Fin.ext ?_
    match a with
    | ⟨0, hh⟩ =>
      show (scatterD.start (ix3 b c q) idx ⟨0, hh⟩ + (scatterD.window (ix3 b c q) ⟨0, hh⟩ : Int)).toNat = b.val
      rw [scatter_start_0, scatter_window_0]; omega
    | ⟨1, hh⟩ =>
      show (scatterD.start (ix3 b c q) idx ⟨1, hh⟩ + (scatterD.window (ix3 b c q) ⟨1, hh⟩ : Int)).toNat = c.val
      rw [scatter_start_1, scatter_window_1]; omega
    | ⟨2, hh⟩ =>
      show (scatterD.start (ix3 b c q) idx ⟨2, hh⟩ + (scatterD.window (ix3 b c q) ⟨2, hh⟩ : Int)).toNat = n
      rw [h2, scatter_window_2]; omega
  · -- each of them is a position of its axis
    intro a
    match a with
    | ⟨0, hh⟩ =>
      show 0 ≤ scatterD.start (ix3 b c q) idx ⟨0, hh⟩ + (scatterD.window (ix3 b c q) ⟨0, hh⟩ : Int) ∧
        scatterD.start (ix3 b c q) idx ⟨0, hh⟩ + (scatterD.window (ix3 b c q) ⟨0, hh⟩ : Int) < (8 : ℕ)
      rw [scatter_start_0, scatter_window_0]; omega
    | ⟨1, hh⟩ =>
      show 0 ≤ scatterD.start (ix3 b c q) idx ⟨1, hh⟩ + (scatterD.window (ix3 b c q) ⟨1, hh⟩ : Int) ∧
        scatterD.start (ix3 b c q) idx ⟨1, hh⟩ + (scatterD.window (ix3 b c q) ⟨1, hh⟩ : Int) < (32 : ℕ)
      rw [scatter_start_1, scatter_window_1]; omega
    | ⟨2, hh⟩ =>
      show 0 ≤ scatterD.start (ix3 b c q) idx ⟨2, hh⟩ + (scatterD.window (ix3 b c q) ⟨2, hh⟩ : Int) ∧
        scatterD.start (ix3 b c q) idx ⟨2, hh⟩ + (scatterD.window (ix3 b c q) ⟨2, hh⟩ : Int) < (65536 : ℕ)
      rw [h2, scatter_window_2]; omega

end Cert.Proof.Ref

end
-- ==== Proof.RefSum.lean ====
/-
  The re-indexing behind the reference's scatter-add: the flat patch positions `n < 580644` whose target
  `(kh + oh)·256 + (kw + ow)` is `h·256 + w` are, one for each kernel offset `(kh, kw)` that reaches `(h, w)`, the
  position with `oh = h - kh`, `ow = w - kw` (as `kw + ow < 256`, the target determines `kh + oh` and `kw + ow`).
  So a sum over those positions is the nine-term sum over the offsets.
-/
import proofs.«150232_j14559939133583_1_alg».proof.Proof.Spec
import Mathlib.Algebra.BigOperators.Fin
import Mathlib.Algebra.BigOperators.Ring.Finset

noncomputable section

open scoped BigOperators

namespace Cert.Proof.Ref

open Cert.Fold

/-- The quotients by `64516 = 254·254` and `193548 = 254·254·3` as iterated quotients. -/
theorem div_split (n : ℕ) : n / 64516 = n / 254 / 254 ∧ n / 193548 = n / 254 / 254 / 3 := by
  constructor
  · rw [Nat.div_div_eq_div_mul]
  · rw [Nat.div_div_eq_div_mul, Nat.div_div_eq_div_mul]

/-- The decomposition of a flat patch position: below `580644 = 3·3·254·254`, the target `h·256 + w` (with
    `h, w < 256`) fixes `kh + oh = h` and `kw + ow = w`, as `kw + ow < 256`. -/
theorem tgt_eq_iff {n h w : ℕ} (hn : n < 580644) (hh : h < 256) (hw : w < 256) :
    tgt n = h * 256 + w ↔ n / 193548 + n / 254 % 254 = h ∧ n / 64516 % 3 + n % 254 = w := by
  unfold tgt
  omega

/-- The position of offset `(kh, kw)` that lands on `(h, w)` is a flat patch position. -/
theorem pos_lt {kh kw h w : ℕ} (hkh : kh < 3) (hkw : kw < 3) (r1 : reach kh h) (r2 : reach kw w) :
    ((kh * 3 + kw) * 254 + (h - kh)) * 254 + (w - kw) < 580644 := by
  unfold reach at r1 r2
  omega

/-- The four digits of the position `((kh·3 + kw)·254 + oh)·254 + ow`. -/
theorem digits_pos {kh kw oh ow : ℕ} (hkw : kw < 3) (hoh : oh < 254) (how : ow < 254) :
    let m := ((kh * 3 + kw) * 254 + oh) * 254 + ow
    m / 193548 = kh ∧ m / 64516 % 3 = kw ∧ m / 254 % 254 = oh ∧ m % 254 = ow := by
  intro m
  have s1 : m / 254 = (kh * 3 + kw) * 254 + oh := by omega
  have s2 : m / 254 / 254 = kh * 3 + kw := by rw [s1]; omega
  have s3 : m / 254 / 254 / 3 = kh := by rw [s2]; omega
  obtain ⟨e1, e2⟩ := div_split m
  refine ⟨by rw [e2, s3], by rw [e1, s2]; omega, by rw [s1]; omega, by omega⟩

/-- A position below `580644` is rebuilt from its four digits. -/
theorem pos_digits (n : ℕ) :
    ((n / 193548 * 3 + n / 64516 % 3) * 254 + n / 254 % 254) * 254 + n % 254 = n := by
  obtain ⟨e1, e2⟩ := div_split n
  rw [e1, e2]
  omega

/-- The sum, over the flat patch positions whose target is `h·256 + w`, of `f` is the sum over the kernel offsets that
    reach `(h, w)` of `f` at the offset's one such position. -/
theorem sum_filter_tgt (f : ℕ → EReal) (h w : ℕ) (hh : h < 256) (hw : w < 256) :
    ∑ q ∈ (Finset.univ : Finset (Fin 580644)).filter (fun q => tgt q.val = h * 256 + w), f q.val
      = ∑ kh : Fin 3, ∑ kw : Fin 3,
          if reach kh.val h ∧ reach kw.val w then
            f (((kh.val * 3 + kw.val) * 254 + (h - kh.val)) * 254 + (w - kw.val))
          else 0 := by
  -- the right side as a sum over the offsets that reach `(h, w)`
  have hR : (∑ kh : Fin 3, ∑ kw : Fin 3,
          if reach kh.val h ∧ reach kw.val w then
            f (((kh.val * 3 + kw.val) * 254 + (h - kh.val)) * 254 + (w - kw.val))
          else 0)
      = ∑ p ∈ (Finset.univ : Finset (Fin 3 × Fin 3)).filter (fun p => reach p.1.val h ∧ reach p.2.val w),
          f (((p.1.val * 3 + p.2.val) * 254 + (h - p.1.val)) * 254 + (w - p.2.val)) := by
    rw [Finset.sum_filter, Fintype.sum_prod_type]
  rw [hR]
  -- the bijection: a position goes to its offset `(n / 193548, n / 64516 % 3)`; an offset to its one position
  refine Finset.sum_bij'
    (fun q _ => ((⟨q.val / 193548, by have := q.isLt; omega⟩ : Fin 3),
                 (⟨q.val / 64516 % 3, Nat.mod_lt _ (by decide)⟩ : Fin 3)))
    (fun p hp => (⟨((p.1.val * 3 + p.2.val) * 254 + (h - p.1.val)) * 254 + (w - p.2.val),
        pos_lt p.1.isLt p.2.isLt (Finset.mem_filter.mp hp).2.1 (Finset.mem_filter.mp hp).2.2⟩ : Fin 580644))
    ?_ ?_ ?_ ?_ ?_
  · -- a position with target `h·256 + w` has an offset that reaches `(h, w)`
    intro q hq
    have hq' := (tgt_eq_iff q.isLt hh hw).mp (Finset.mem_filter.mp hq).2
    have l1 : q.val / 254 % 254 < 254 := Nat.mod_lt _ (by decide)
    have l2 : q.val % 254 < 254 := Nat.mod_lt _ (by decide)
    refine Finset.mem_filter.mpr ⟨Finset.mem_univ _, ?_⟩
    simp only [reach]
    omega
  · -- the position of an offset that reaches `(h, w)` has target `h·256 + w`
    intro p hp
    have hp' := (Finset.mem_filter.mp hp).2
    have h1 := p.1.isLt
    have h2 := p.2.isLt
    simp only [Finset.mem_filter, Finset.mem_univ, true_and]
    rw [tgt_eq_iff (pos_lt h1 h2 hp'.1 hp'.2) hh hw]
    unfold reach at hp'
    obtain ⟨d1, d2, d3, d4⟩ := digits_pos (kh := p.1.val) (kw := p.2.val) (oh := h - p.1.val) (ow := w - p.2.val)
      h2 (by omega) (by omega)
    rw [d1, d2, d3, d4]
    omega
  · -- a position is the position of its offset
    intro q hq
    have hq' := (tgt_eq_iff q.isLt hh hw).mp (Finset.mem_filter.mp hq).2
    apply Fin.ext
    simp only
    have e : h - q.val / 193548 = q.val / 254 % 254 := by omega
    have e' : w - q.val / 64516 % 3 = q.val % 254 := by omega
    rw [e, e']
    exact pos_digits q.val
  · -- an offset is the offset of its position
    intro p hp
    have hp' := (Finset.mem_filter.mp hp).2
    have h1 := p.1.isLt
    have h2 := p.2.isLt
    unfold reach at hp'
    obtain ⟨d1, d2, d3, d4⟩ := digits_pos (kh := p.1.val) (kw := p.2.val) (oh := h - p.1.val) (ow := w - p.2.val)
      h2 (by omega) (by omega)
    apply Prod.ext
    · apply Fin.ext
      exact d1
    · apply Fin.ext
      exact d2
  · -- the summands agree
    intro q hq
    have hq' := (tgt_eq_iff q.isLt hh hw).mp (Finset.mem_filter.mp hq).2
    congr 1
    simp only
    have e : h - q.val / 193548 = q.val / 254 % 254 := by omega
    have e' : w - q.val / 64516 % 3 = q.val % 254 := by omega
    rw [e, e']
    exact (pos_digits q.val).symm

end Cert.Proof.Ref

end
-- ==== Proof.RefValue.lean ====
/-
  The reference computes the overlap-add: its result, the reshape of a scatter-add of the input's patch entries into a
  zero `[8, 32, 65536]` array at the targets `Cert.Fold.tgt`, is `Cert.Fold.G` of the input. At `(b, c, h, w)` the
  scatter-add's exact sum ranges over the updates `(b, c, q)` with target `h·256 + w`; re-indexed by kernel offset
  (`sum_filter_tgt`) it is the nine-term sum, and update `(b, c, q)` is the input at row `9·c + q / 64516`, column `q % 64516`.
-/
import proofs.«150232_j14559939133583_1_alg».proof.Proof.RefIndex
import proofs.«150232_j14559939133583_1_alg».proof.Proof.RefScatter
import proofs.«150232_j14559939133583_1_alg».proof.Proof.RefSum
import Idealize.ShloMosaic.PureOps.Ideal.Laws

noncomputable section

open scoped BigOperators

namespace Cert.Proof.Ref

open Cert.ReferenceIdeal Cert.ReferenceIdeal.Gen Cert.ReferenceIdeal.Read
open Idealize.ShloMosaic Idealize.ShloMosaic.ValueIdx

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- Two rank-3 indices agree exactly when their coordinates do. -/
theorem ix3_inj {n0 n1 n2 : Nat} (a a' : Fin n0) (b b' : Fin n1) (c c' : Fin n2) :
    ix3 a b c = ix3 a' b' c' ↔ a = a' ∧ b = b' ∧ c = c' := by
  constructor
  · intro h
    exact ⟨congrFun h 0, congrFun h 1, congrFun h 2⟩
  · rintro ⟨rfl, rfl, rfl⟩; rfl

/-- The updates the scatter lands at `(b, c, n)` are the `(b, c, q)` whose target is `n`: the sum over them is a sum
    over flat patch positions. -/
theorem scatter_sum (idx : IVec S580644x1 32)
    (hidx : ∀ q : Fin 580644, idx (ix2 q (0 : Fin 1)) = BitVec.ofNat 32 (Cert.Fold.tgt q.val))
    (u : S8x32x580644.Idx → EReal) (b : Fin 8) (c : Fin 32) (n : Fin 65536)
    [DecidablePred (fun j : S8x32x580644.Idx =>
      scatter_S8x32x65536_S580644x1_S8x32x580644_01_2_2_1.resultIdx? j idx = some (ix3 b c n))] :
    ∑ j ∈ Finset.univ.filter (fun j : S8x32x580644.Idx =>
        scatter_S8x32x65536_S580644x1_S8x32x580644_01_2_2_1.resultIdx? j idx = some (ix3 b c n)), u j
      = ∑ q ∈ (Finset.univ : Finset (Fin 580644)).filter (fun q => Cert.Fold.tgt q.val = n.val), u (ix3 b c q) := by
  have key : ∀ (b' : Fin 8) (c' : Fin 32) (q : Fin 580644),
      (scatter_S8x32x65536_S580644x1_S8x32x580644_01_2_2_1.resultIdx? (ix3 b' c' q) idx = some (ix3 b c n))
        ↔ (b' = b ∧ c' = c ∧ Cert.Fold.tgt q.val = n.val) := by
    intro b' c' q
    rw [resultIdx_eq b' c' q idx _ (Cert.Fold.tgt_lt q.isLt) (hidx q), Option.some.injEq, ix3_inj]
    constructor
    · rintro ⟨h1, h2, h3⟩; exact ⟨h1, h2, congrArg Fin.val h3⟩
    · rintro ⟨h1, h2, h3⟩; exact ⟨h1, h2, Fin.ext h3⟩
  rw [Finset.sum_filter, Finset.sum_filter, sum_idx3]
  rw [Finset.sum_eq_single b]
  · rw [Finset.sum_eq_single c]
    · refine Finset.sum_congr rfl fun q _ => ?_
      by_cases hq : Cert.Fold.tgt q.val = n.val
      · rw [if_pos ((key b c q).2 ⟨rfl, rfl, hq⟩), if_pos hq]
      · rw [if_neg (fun h => hq ((key b c q).1 h).2.2), if_neg hq]
    · intro c' _ hc
      exact Finset.sum_eq_zero fun q _ => if_neg (fun h => hc ((key b c' q).1 h).2.1)
    · intro h; exact absurd (Finset.mem_univ _) h
  · intro b' _ hb
    exact Finset.sum_eq_zero fun c' _ => Finset.sum_eq_zero fun q _ => if_neg (fun h => hb ((key b' c' q).1 h).1)
  · intro h; exact absurd (Finset.mem_univ _) h

/-- Update `(b, c, n)` of the reshaped input, as a function of the flat patch position `n` (zero off the range). -/
def upd (x : (⟨S8x288x64516, .f32⟩ : BufTy).Contents (Elt Ideal)) (b : Fin 8) (c : Fin 32) (n : ℕ) : EReal :=
  if hn : n < 580644 then x (idx_main_v34 (ix3 b c (⟨n, hn⟩ : Fin 580644))) else 0

/-- At the flat patch position of plane `3·kh + kw`, patch `(oh, ow)`, the update is the input's entry there. -/
theorem upd_eq_src (x : (⟨S8x288x64516, .f32⟩ : BufTy).Contents (Elt Ideal)) (b : Fin 8) (c : Fin 32)
    (kh kw oh ow : ℕ) (hkh : kh < 3) (hkw : kw < 3) (hoh : oh < 254) (how : ow < 254) :
    upd x b c (((kh * 3 + kw) * 254 + oh) * 254 + ow) = Cert.Fold.src x b.val c.val (3 * kh + kw) oh ow := by
  have hb := b.isLt
  have hc := c.isLt
  have hn : ((kh * 3 + kw) * 254 + oh) * 254 + ow < 580644 := by omega
  have hs : b.val < 8 ∧ c.val * 9 + (3 * kh + kw) < 288 ∧ oh * 254 + ow < 64516 := by omega
  unfold upd Cert.Fold.src
  rw [dif_pos hn, dif_pos hs]
  congr 1
  funext a
  match a with
  | ⟨0, _⟩ =>
    apply Fin.ext
    show ((b.val * 32 + c.val) * 580644 + (((kh * 3 + kw) * 254 + oh) * 254 + ow)) / 18580608 = b.val
    omega
  | ⟨1, _⟩ =>
    apply Fin.ext
    show ((b.val * 32 + c.val) * 580644 + (((kh * 3 + kw) * 254 + oh) * 254 + ow)) / 64516 % 288 = c.val * 9 + (3 * kh + kw)
    omega
  | ⟨2, _⟩ =>
    apply Fin.ext
    show ((b.val * 32 + c.val) * 580644 + (((kh * 3 + kw) * 254 + oh) * 254 + ow)) % 64516 = oh * 254 + ow
    omega

/-- The reference's result is the overlap-add of its input. -/
theorem ref_value (x : (⟨S8x288x64516, .f32⟩ : BufTy).Contents (Elt Ideal)) :
    val_main_v43 (F := Ideal) x = Cert.Fold.G x := by
  funext y
  obtain ⟨b, c, h, w, rfl⟩ : ∃ (b : Fin 8) (c : Fin 32) (h : Fin 256) (w : Fin 256), y = ix4 b c h w :=
    ⟨y 0, y 1, y 2, y 3, eq_ix4 y⟩
  have hb := b.isLt
  have hc := c.isLt
  have hh := h.isLt
  have hw := w.isLt
  have hn : h.val * 256 + w.val < 65536 := by omega
  have hidx43 : idx_main_v43 (ix4 b c h w) = ix3 b c (⟨h.val * 256 + w.val, hn⟩ : Fin 65536) := by
    funext a
    match a with
    | ⟨0, _⟩ =>
      apply Fin.ext
      show (((b.val * 32 + c.val) * 256 + h.val) * 256 + w.val) / 2097152 = b.val
      omega
    | ⟨1, _⟩ =>
      apply Fin.ext
      show (((b.val * 32 + c.val) * 256 + h.val) * 256 + w.val) / 65536 % 32 = c.val
      omega
    | ⟨2, _⟩ =>
      apply Fin.ext
      show (((b.val * 32 + c.val) * 256 + h.val) * 256 + w.val) % 65536 = h.val * 256 + w.val
      omega
  rw [val_main_v43_apply, hidx43]
  unfold val_main_v42 Host.scatterAdd
  rw [Ideal.hostScatterAdd_def]
  unfold Ideal.hostScatterAdd
  beta_reduce
  rw [scatter_sum (val_main_v41 (F := Ideal)) idx_word (val_main_v34 (F := Ideal) x) b c ⟨h.val * 256 + w.val, hn⟩]
  rw [val_main_v35_apply, val_main_cst_apply, Ideal.ofBits_def, Ideal.ofBits_zero_f32, zero_add]
  have hupd : ∀ q ∈ (Finset.univ : Finset (Fin 580644)).filter (fun q => Cert.Fold.tgt q.val = h.val * 256 + w.val),
      val_main_v34 (F := Ideal) x (ix3 b c q) = upd x b c q.val := by
    intro q _
    rw [val_main_v34_apply]
    unfold upd
    rw [dif_pos q.isLt]
  rw [Finset.sum_congr rfl hupd, sum_filter_tgt (upd x b c) h.val w.val hh hw]
  unfold Cert.Fold.G
  refine Finset.sum_congr rfl fun kh _ => Finset.sum_congr rfl fun kw _ => ?_
  show (if Cert.Fold.reach kh.val h.val ∧ Cert.Fold.reach kw.val w.val then _ else _)
     = (if Cert.Fold.reach kh.val h.val ∧ Cert.Fold.reach kw.val w.val then
          Cert.Fold.src x b.val c.val (3 * kh.val + kw.val) (h.val - kh.val) (w.val - kw.val) else 0)
  by_cases hr : Cert.Fold.reach kh.val h.val ∧ Cert.Fold.reach kw.val w.val
  · rw [if_pos hr, if_pos hr]
    obtain ⟨⟨h1, h2⟩, ⟨h3, h4⟩⟩ := hr
    exact upd_eq_src x b c kh.val kw.val (h.val - kh.val) (w.val - kw.val) kh.isLt kw.isLt (by omega) (by omega)
  · rw [if_neg hr, if_neg hr]

end Cert.Proof.Ref

end
-- ==== Proof.lean ====
/-
  The overlap-add ("fold", col2im) kernel against its scatter-add reference, over the extended reals.
  Both compute, at batch `b`, channel `c`, row `h`, column `w`, the sum over the nine kernel offsets `(kh, kw)` of the input's
  patch entry at plane `3·kh + kw`, position `(h - kh, w - kw)`, for the offsets with `0 ≤ h - kh < 254` and
  `0 ≤ w - kw < 254` (`Cert.Fold.G`, Proof/Spec.lean). The kernel zeroes a 4-channel output block and adds the nine
  shifted planes into it, window after window (Proof/Out.lean, Proof/Body.lean, read at an index in Proof/BlockValue.lean
  and laid over the whole result in Proof/Final.lean); the reference scatters every patch entry to a computed flat position
  and adds up what lands on each (Proof/RefIndex.lean, Proof/RefScatter.lean, Proof/RefSum.lean, Proof/RefValue.lean).
  Only commutativity and associativity of addition are used, so the inputs' finiteness is never opened.
  The three frames: the two kernel programs by the body's run at every grid point (the same text at both instances), the
  reference by its run with the result dropped. The idealization rewrote nothing, so `preserves` is trivial.
-/
import proofs.«150232_j14559939133583_1_alg».proof.Defs
import proofs.«150232_j14559939133583_1_alg».proof.Proof.Gen.Kernel
import proofs.«150232_j14559939133583_1_alg».proof.Proof.Gen.KernelIdeal
import proofs.«150232_j14559939133583_1_alg».proof.Proof.Gen.ReferenceIdeal
import proofs.«150232_j14559939133583_1_alg».proof.Proof.Gen.Pre_finite_inputs
import proofs.«150232_j14559939133583_1_alg».proof.Proof.Gen.ReferenceIdeal.Run
import proofs.«150232_j14559939133583_1_alg».proof.Proof.Gen.ReferenceIdeal.Read
import proofs.«150232_j14559939133583_1_alg».proof.Proof.BodyK
import proofs.«150232_j14559939133583_1_alg».proof.Proof.Final
import proofs.«150232_j14559939133583_1_alg».proof.Proof.RefValue
import Idealize.ShloMosaic.Adequacy
import Idealize.ShloMosaic.Init

noncomputable section

namespace Cert.Proof

open Idealize.ShloMosaic Idealize.ShloMosaic.TcCoe Idealize.SL.Sem

/-- The printed kernel runs and leaves its argument unchanged. -/
theorem frame_k : Cert.frame_Kernel := fun m ρ _ => Cert.Proof.K.frame (F := Bits) m ρ

/-- So does its idealization. -/
theorem frame_ki : Cert.frame_KernelIdeal := fun m ρ _ => Cert.Proof.KI.frame (F := Ideal) m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Run from memories that agree on the argument, the idealized kernel and the idealized reference both end at the
    overlap-add of that argument. -/
theorem algebraic : Cert.algebraic_KernelIdeal_ReferenceIdeal := by
  intro m ρ m' ρ' _ hagree
  refine ⟨fun c => Cert.Fold.G (m ((c.tc : Thread Cert.KernelIdeal.nD Cert.KernelIdeal.τ).loc Cert.KernelIdeal.main_arg0)),
    Cert.Proof.KI.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v43_eq, Cert.Proof.Ref.ref_value, hagree c]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
